-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1024x3072 : Shape := ⟨2, ![1024, 3072]⟩
abbrev S8192x3072 : Shape := ⟨2, ![8192, 3072]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S512x1024 : Shape := ⟨2, ![512, 1024]⟩
abbrev S512x128 : Shape := ⟨2, ![512, 128]⟩
abbrev S2048x1024 : Shape := ⟨2, ![2048, 1024]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x3072, .f32⟩
  | .hbm, ⟨10, _⟩ => ⟨S1024x3072, .bf16⟩
  | .hbm, ⟨11, _⟩ => ⟨S1024x1024, .f32⟩
  | .hbm, ⟨12, _⟩ => ⟨S1024x1024, .bf16⟩
  | .hbm, ⟨13, _⟩ => ⟨S8192x3072, .bf16⟩
  | .hbm, ⟨14, _⟩ => ⟨S4x2048x3072, .bf16⟩
  | .hbm, ⟨15, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

@[reducible] def k1_t1_loop : Scf.Loop 32 :=
  let c0_i32_2 : BitVec 32 := 0#32
  let c8_i32 : BitVec 32 := 8#32
  let v0 : BitVec 32 := Scalar.addi c0_i32_2 c8_i32
  let c1_i32 : BitVec 32 := 1#32
  ⟨c0_i32_2, v0, c1_i32⟩
def k1_mult1 (k1_t1 : Fin k1_t1_loop.trips) : BitVec 32 :=
  let c0_i32_2 : BitVec 32 := 0#32
  let c1_i32 : BitVec 32 := 1#32
  let arg8 : BitVec 32 := Scf.iv c0_i32_2 c1_i32 k1_t1
  let c128_i32 : BitVec 32 := 128#32
  let v8 : BitVec 32 := Scalar.muli arg8 c128_i32
  v8
def k1_off1 (k1_t1 : Fin k1_t1_loop.trips) : Fin 2 → Nat :=
  let c0_12 : Index := 0#32
  let c0_i32_2 : BitVec 32 := 0#32
  let c1_i32 : BitVec 32 := 1#32
  let arg8 : BitVec 32 := Scf.iv c0_i32_2 c1_i32 k1_t1
  let c128_i32 : BitVec 32 := 128#32
  let v8 : BitVec 32 := Scalar.muli arg8 c128_i32
  let v9 : BitVec 32 := v8
  let v12 : Index := Scalar.indexCast v9
  ![0, v12.toNat]
def k1_off2 (k1_t1 : Fin k1_t1_loop.trips) : Fin 2 → Nat :=
  let c0_15 : Index := 0#32
  let c0_i32_2 : BitVec 32 := 0#32
  let c1_i32 : BitVec 32 := 1#32
  let arg8 : BitVec 32 := Scf.iv c0_i32_2 c1_i32 k1_t1
  let c128_i32 : BitVec 32 := 128#32
  let v8 : BitVec 32 := Scalar.muli arg8 c128_i32
  let v9 : BitVec 32 := v8
  let v17 : Index := Scalar.indexCast v9
  ![0, v17.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x3072_S4x2048x3072 : S8192x3072.ShapeCasts S4x2048x3072
  inb_S1x512x1024_S1x512x1024_0_0_0 : ∀ a, (![0, 0, 0] : Fin 3 → Nat) a + S1x512x1024.size a ≤ S1x512x1024.size a
  squeezes_S1x512x1024_S512x1024 : S1x512x1024.Squeezes S512x1024
  h_S512x128 : 0 < S512x128.numel
  shapeCasts_S512x128_S512x128 : S512x128.ShapeCasts S512x128
  inb_S1x2048x1024_S1x2048x1024_0_0_0 : ∀ a, (![0, 0, 0] : Fin 3 → Nat) a + S1x2048x1024.size a ≤ S1x2048x1024.size a
  squeezes_S1x2048x1024_S2048x1024 : S1x2048x1024.Squeezes S2048x1024
  h_S2048x128 : 0 < S2048x128.numel
  shapeCasts_S2048x128_S2048x128 : S2048x128.ShapeCasts S2048x128
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  concatenates_S512x64_S512x64_S512x128_d1 : Shape.Concatenates [S512x64, S512x64] S512x128 1
  inb_S512x1024_S512x1024_0_0 : ∀ a, (![0, 0] : Fin 2 → Nat) a + S512x1024.size a ≤ S512x1024.size a
  h_S512x1024 : 0 < S512x1024.numel
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S512x128.size a ≤ S512x1024.size a
  k1_off2_inb : ∀ k1_t1 : Fin k1_t1_loop.trips, ∀ a, (k1_off2 k1_t1) a + S2048x128.size a ≤ S2048x1024.size a
  k1_off1_packedbf16 : ∀ k1_t1 : Fin k1_t1_loop.trips, (Rect.unit (s := S512x1024) (k1_off1 k1_t1) S512x128.size (k1_off1_inb k1_t1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x16x64, .f32⟩
  | .hbm, ⟨7, _⟩ => ⟨S4x16x2048x64, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsOuts.lean ====
/-
  What each kernel body leaves in its output window's buffer, as a function of the contents of its input windows'
  buffers, at any float instance. The projection body: the whole block's payload. The attention body: for each of
  the eight pairs of heads the payload of the three 128-column strips of the query, key and value blocks, laid side
  by side into the 512 × 1024 scratch, then the output projection's payload of that scratch and the weight block.
-/
import proofs.«429044_j39298950759077_3_alg».proof.Proof.Gen.Kernel.Skeleton
import Idealize.ShloMosaic.Lib.ValueIdx

noncomputable section

namespace Cert.Kernel.Hand

open Idealize.ShloMosaic Idealize.ShloMosaic.TcCoe Idealize.SL.Sem
open Cert.Kernel Cert.Kernel.Gen

variable {F : FTy → Type} [FloatOps F]

/-- The projection body's output block: the payload of the two input blocks read whole. -/
def out0_2 (x0 : Vec F S1024x1024 .f32) (x1 : Vec F S1024x1024 .bf16) : Vec F S1024x1024 .bf16 := k0_pay1 x0 x1

/-- Columns 128·p … 128·p + 127 of the query block (its leading unit axis dropped). -/
def colsQ (x0 : Vec F S1x512x1024 .bf16) (p : Fin 8) : Vec F S512x128 .bf16 :=
  fun i => x0 (ValueIdx.ix3 (0 : Fin 1) (i 0) ⟨128 * p.val + (i 1).val, by have := p.isLt; have := ValueIdx.idx2_lt1 i; omega⟩)

/-- Columns 128·p … 128·p + 127 of a key or value block (its leading unit axis dropped). -/
def colsKV (x : Vec F S1x2048x1024 .bf16) (p : Fin 8) : Vec F S2048x128 .bf16 :=
  fun i => x (ValueIdx.ix3 (0 : Fin 1) (i 0) ⟨128 * p.val + (i 1).val, by have := p.isLt; have := ValueIdx.idx2_lt1 i; omega⟩)

/-- What one trip of the head-pair loop stores: the two heads' normalised outputs side by side. -/
def headPair (x0 : Vec F S1x512x1024 .bf16) (x1 x2 : Vec F S1x2048x1024 .bf16) (p : Fin 8) : Vec F S512x128 .bf16 :=
  k1_pay1 (k1_pay6 (colsKV x2 p)) (k1_pay7 (colsQ x0 p) (colsKV x1 p) (colsKV x2 p)) (k1_pay8 (colsQ x0 p) (colsKV x1 p))
    (k1_pay9 (colsQ x0 p) (colsKV x1 p))

/-- The scratch after the loop: strip p holds pair p's output. -/
def scr (x0 : Vec F S1x512x1024 .bf16) (x1 x2 : Vec F S1x2048x1024 .bf16) : Vec F S512x1024 .bf16 :=
  fun y => headPair x0 x1 x2 ⟨(y 1).val / 128, by have := ValueIdx.idx2_lt1 y; omega⟩
    (ValueIdx.ix2 (y 0) ⟨(y 1).val % 128, Nat.mod_lt _ (by decide)⟩)

/-- The attention body's output block: the output projection of the scratch by the weight block. -/
def out1_4 (x0 : Vec F S1x512x1024 .bf16) (x1 x2 : Vec F S1x2048x1024 .bf16) (x3 : Vec F S1024x1024 .bf16) : Vec F S1x512x1024 .f32 :=
  k1_pay2 (scr x0 x1 x2) x3

end Cert.Kernel.Hand

end
-- ==== Proof.BitsDats.lean ====
/-
  The proof data of the two pipelines, at any contents `V` of the TensorCore's buffers when the region is entered:
  each window's block at a grid point read off its array, and after the body each input's staging buffer at its block
  and the output's at the body's function of the input blocks. In the second pipeline three windows read one array
  (the packed projections, at three column blocks), which the core holds in three shares.
-/
import proofs.«429044_j39298950759077_3_alg».proof.Proof.BitsOuts
import proofs.«429044_j39298950759077_3_alg».proof.Proof.Gen.Kernel.Launch
import proofs.«429044_j39298950759077_3_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection pipeline -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers at their blocks, the output's at the body's function of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The attention pipeline -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the four inputs' buffers at their blocks, the output's at the body's function of
    them. The packed projections' array is read by windows 0, 1 and 2: the core holds it in three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.Kernel.Hand

end
-- ==== Proof.BitsBody0.lean ====
/-
  The projection kernel's body run once: from its two input staging buffers held whole at given contents and its
  output staging buffer at any contents, it returns with the inputs as they were and the output at the block
  `out0_2` of the inputs.
-/
import proofs.«429044_j39298950759077_3_alg».proof.Proof.BitsOuts
import proofs.«429044_j39298950759077_3_alg».proof.Proof.Gen.Kernel.Loops
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_kernel0 (c : Dev nD) (E : Set ℕ) (i : grid0.Coords)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  -- the printed body is its skeleton: three whole-buffer loads, then one whole-buffer store of the payload
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store's rectangle is the whole block at zero offsets: it covers every index, so the buffer read back is
  -- the stored payload, and each whole-block load read the input's contents as they stand
  have hz : (![0, 0] : Fin 2 → ℕ) = fun _ => 0 := by funext a; fin_cases a <;> rfl
  refine (View.read_writes_eq_canon _ _ _ ?_).trans ?_
  · intro y
    exact ⟨_, List.mem_singleton_self _, View.mem_set_unit_zero hz inb_S1024x1024_S1024x1024_0_0 y⟩
  rw [View.canon_unit_zero hz]
  unfold out0_2
  simp only [View.readAt_eq_ld, View.ld_unit_zero (S := S1024x1024) hz]

end Cert.Kernel.Hand

end
-- ==== Proof.BitsBody1.lean ====
/-
  The attention kernel's body run once: from its four input staging buffers held whole at given contents, its
  output staging buffer and its scratch at any contents, it returns with the inputs as they were, the output at
  the block `out1_4` of the inputs, and the scratch at some contents.

  The body's loop over the eight pairs of heads is run through its invariant: before trip `k` the scratch holds the
  pieces of the trips before `k` written over whatever it held at entry. Trip `k`'s one piece is the store, at columns
  128·k … 128·k + 127, of the pair's payload of the three column strips the trip loads. The eight pieces tile the
  scratch and each is the block of the one function `scr` at its rectangle, so the scratch read whole after the loop
  is `scr` of the inputs, whatever it held before; the output projection's payload of it is `out1_4`.
-/
import proofs.«429044_j39298950759077_3_alg».proof.Proof.BitsOuts
import proofs.«429044_j39298950759077_3_alg».proof.Proof.Gen.Kernel.Loops
import Idealize.ShloMosaic.Lib.Pipeline.FrameBody
import Idealize.ShloMosaic.Lib.Tactic
import Mathlib.Tactic.FinCases
import Idealize.ShloMosaic.Lib.WordExact
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The squeezed input memrefs go through their buffers' own elements -/

/-- The squeeze of the slice of a memref at the whole rectangle (zero offsets, the memref's own sizes) goes through
    the memref's own buffer elements. -/
theorem set_squeeze_slice_zero {σ : RefSig} {κ : Kind} {sp : Space} {s s' : Shape} {e : EltTy} (M : Memref σ κ sp s e)
    {off : Fin s.rank → ℕ} (h : off = fun _ => 0) (inb : ∀ a, off a + s.size a ≤ s.size a)
    (hq : (Rect.unit off s.size inb).shape.Squeezes s') :
    ((M.slice (Rect.unit off s.size inb) (fun _ => rfl)).squeeze s' hq).view.set = M.view.set := by
  subst h
  exact (View.set_reshape (v := M.view.slice (Rect.unit (fun _ => 0) s.size inb)) hq.numel_eq).trans
    (View.set_slice_rectWhole M.view)

theorem zero3 : (![0, 0, 0] : Fin 3 → ℕ) = fun _ => 0 := by
  funext a; fin_cases a <;> rfl

theorem zero2 : (![0, 0] : Fin 2 → ℕ) = fun _ => 0 := by
  funext a; fin_cases a <;> rfl

/-! ## The loop's trips and their pieces -/

/-- The loop makes eight trips. -/
theorem trips8 : k1_t1_loop.trips = 8 := by decide

theorem trips_le (k : Fin k1_t1_loop.trips) : k.val < 8 := Nat.lt_of_lt_of_le k.isLt k1_t1_abs.2.1

theorem off1_0 (k : Fin k1_t1_loop.trips) : (k1_off1 k) 0 = 0 := by rw [k1_off1_eq]; rfl
theorem off1_1 (k : Fin k1_t1_loop.trips) : (k1_off1 k) 1 = 128 * k.val := by rw [k1_off1_eq]; rfl
theorem off2_0 (k : Fin k1_t1_loop.trips) : (k1_off2 k) 0 = 0 := by rw [k1_off2_eq]; rfl
theorem off2_1 (k : Fin k1_t1_loop.trips) : (k1_off2 k) 1 = 128 * k.val := by rw [k1_off2_eq]; rfl

/-- What trip `k` stores into the scratch: at columns 128·k … 128·k + 127, the payload of the trip's three loads. -/
def piece (mv_v11 : Memref sig .tc .vmem S512x1024 .bf16) (mv_v16 mv_v21 : Memref sig .tc .vmem S2048x1024 .bf16)
    (X_v11 : BufTy.Contents (Elt F) mv_v11.view.ty) (X_v16 : BufTy.Contents (Elt F) mv_v16.view.ty)
    (X_v21 : BufTy.Contents (Elt F) mv_v21.view.ty) (k : Fin k1_t1_loop.trips) : View.Piece (Elt F) S512x1024 .bf16 :=
  ⟨Rect.unit (s := S512x1024) (k1_off1 k) S512x128.size (k1_off1_inb k),
    k1_pay1
      (k1_pay6 (View.readAt (Elt F) mv_v21.view (Rect.unit (s := S2048x1024) (k1_off2 k) S2048x128.size (k1_off2_inb k)).toLoadRect X_v21))
      (k1_pay7 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16)
        (View.readAt (Elt F) mv_v21.view (Rect.unit (s := S2048x1024) (k1_off2 k) S2048x128.size (k1_off2_inb k)).toLoadRect X_v21))
      (k1_pay8 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16))
      (k1_pay9 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16))⟩

/-- One trip's piece list is that one piece: the trip's definition unfolded. -/
theorem tripL_eq (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (k : Fin k1_t1_loop.trips) :
    tripL_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 k = [piece mv_v11 mv_v16 mv_v21 X_v11 X_v16 X_v21 k] := by
  unfold tripL_k1_t1 trip_k1_t1
  rfl

/-- Every piece written before trip `n` is some trip's piece. -/
theorem mem_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) :
    ∀ (n : ℕ) (p : View.Piece (Elt F) S512x1024 .bf16), p ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 n →
      ∃ k : Fin k1_t1_loop.trips, p = piece mv_v11 mv_v16 mv_v21 X_v11 X_v16 X_v21 k
  | 0, p, hp => by rw [pb_k1_t1.eq_1] at hp; exact absurd hp List.not_mem_nil
  | n + 1, p, hp => by
    rw [pb_k1_t1.eq_2] at hp; unfold pb_k1_t1Step at hp
    by_cases h : n < k1_t1_loop.trips
    · rw [dif_pos h, List.mem_append, tripL_eq] at hp
      rcases hp with hp | hp
      · exact ⟨⟨n, h⟩, List.mem_singleton.mp hp⟩
      · exact mem_pb 𝒱 c bd i arg2 harg2 arg3 harg3 arg4 harg4 arg5 harg5 arg6 harg6 arg7 harg7 mv_v11 hcanon_v11 mv_v16 hcanon_v16 mv_v21 hcanon_v21 X_v11 X_v16 X_v21 n p hp
    · rw [dif_neg h] at hp
      exact mem_pb 𝒱 c bd i arg2 harg2 arg3 harg3 arg4 harg4 arg5 harg5 arg6 harg6 arg7 harg7 mv_v11 hcanon_v11 mv_v16 hcanon_v16 mv_v21 hcanon_v21 X_v11 X_v16 X_v21 n p hp

/-- Trip `k`'s piece is among those written before any later trip. -/
theorem piece_mem_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (k : Fin k1_t1_loop.trips) :
    ∀ n : ℕ, k.val < n → piece mv_v11 mv_v16 mv_v21 X_v11 X_v16 X_v21 k ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 n
  | 0, h => absurd h (Nat.not_lt_zero _)
  | n + 1, h => by
    rw [pb_k1_t1.eq_2]; unfold pb_k1_t1Step
    by_cases hn : n < k1_t1_loop.trips
    · rw [dif_pos hn, List.mem_append, tripL_eq]
      rcases Nat.lt_succ_iff_lt_or_eq.mp h with h' | h'
      · exact Or.inr (piece_mem_pb 𝒱 c bd i arg2 harg2 arg3 harg3 arg4 harg4 arg5 harg5 arg6 harg6 arg7 harg7 mv_v11 hcanon_v11 mv_v16 hcanon_v16 mv_v21 hcanon_v21 X_v11 X_v16 X_v21 k n h')
      · have hk : k = ⟨n, hn⟩ := Fin.ext h'
        subst hk
        exact Or.inl (List.mem_singleton_self _)
    · rw [dif_neg hn]
      exact piece_mem_pb 𝒱 c bd i arg2 harg2 arg3 harg3 arg4 harg4 arg5 harg5 arg6 harg6 arg7 harg7 mv_v11 hcanon_v11 mv_v16 hcanon_v16 mv_v21 hcanon_v21 X_v11 X_v16 X_v21 k n (by have := k.isLt; omega)

/-- The eight trips' rectangles cover the scratch: column `y 1` lies in trip `y 1 / 128`'s strip. -/
theorem cover_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (y : S512x1024.Idx) :
    ∃ p ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 k1_t1_loop.trips, y ∈ p.1.set := by
  have hy0 := ValueIdx.idx2_lt0 y
  have hy1 := ValueIdx.idx2_lt1 y
  have hk : (y 1).val / 128 < k1_t1_loop.trips := by rw [trips8]; omega
  refine ⟨_, piece_mem_pb 𝒱 c bd i arg2 harg2 arg3 harg3 arg4 harg4 arg5 harg5 arg6 harg6 arg7 harg7 mv_v11 hcanon_v11 mv_v16 hcanon_v16 mv_v21 hcanon_v21 X_v11 X_v16 X_v21 ⟨(y 1).val / 128, hk⟩ _ hk, ?_⟩
  show y ∈ (Rect.unit (s := S512x1024) (k1_off1 ⟨(y 1).val / 128, hk⟩) S512x128.size (k1_off1_inb _)).set
  rw [Rect.mem_set_unit]
  intro a
  match a with
  | ⟨0, _⟩ =>
    show (k1_off1 ⟨(y 1).val / 128, hk⟩) 0 ≤ (y 0).val ∧ (y 0).val < (k1_off1 ⟨(y 1).val / 128, hk⟩) 0 + 512
    rw [off1_0]; omega
  | ⟨1, _⟩ =>
    show (k1_off1 ⟨(y 1).val / 128, hk⟩) 1 ≤ (y 1).val ∧ (y 1).val < (k1_off1 ⟨(y 1).val / 128, hk⟩) 1 + 128
    rw [off1_1]; show 128 * ((y 1).val / 128) ≤ (y 1).val ∧ (y 1).val < 128 * ((y 1).val / 128) + 128; omega

/-! ## What a trip's loads read: the column strips of the input blocks -/

/-- The load of trip `k` through the squeezed query memref reads the query block's columns 128·k … 128·k + 127. -/
theorem loadQ (arg2 : Memref sig .tc .vmem S1x512x1024 .bf16) (f0 : BufTy.Contents (Elt F) arg2.view.ty)
    (k : Fin k1_t1_loop.trips) :
    View.readAt (Elt F) ((arg2.slice (Rect.unit (s := S1x512x1024) ![0, 0, 0] S1x512x1024.size inb_S1x512x1024_S1x512x1024_0_0_0) (fun _ => rfl)).squeeze S512x1024 squeezes_S1x512x1024_S512x1024).view
        (Rect.unit (s := S512x1024) (k1_off1 k) S512x128.size (k1_off1_inb k)).toLoadRect f0
      = colsQ (arg2.view.read (Elt F) f0) ⟨k.val, trips_le k⟩ := by
  funext j
  rw [View.readAt_apply, Memref.read_squeeze_slice arg2 _ (fun _ => rfl) squeezes_S1x512x1024_S512x1024 (by decide) f0,
    shapeCast_dropUnit_apply, View.readAt_apply]
  unfold colsQ
  refine congrArg _ (funext fun a => Fin.ext ?_)
  match a with
  | ⟨0, _⟩ => rfl
  | ⟨1, _⟩ =>
    show 0 + 1 * ((k1_off1 k) 0 + 1 * (j 0).val) = (j 0).val
    rw [off1_0]; omega
  | ⟨2, _⟩ =>
    show 0 + 1 * ((k1_off1 k) 1 + 1 * (j 1).val) = 128 * k.val + (j 1).val
    rw [off1_1]; omega

/-- The load of trip `k` through a squeezed key or value memref reads that block's columns 128·k … 128·k + 127. -/
theorem loadKV (arg3 : Memref sig .tc .vmem S1x2048x1024 .bf16) (f1 : BufTy.Contents (Elt F) arg3.view.ty)
    (k : Fin k1_t1_loop.trips) :
    View.readAt (Elt F) ((arg3.slice (Rect.unit (s := S1x2048x1024) ![0, 0, 0] S1x2048x1024.size inb_S1x2048x1024_S1x2048x1024_0_0_0) (fun _ => rfl)).squeeze S2048x1024 squeezes_S1x2048x1024_S2048x1024).view
        (Rect.unit (s := S2048x1024) (k1_off2 k) S2048x128.size (k1_off2_inb k)).toLoadRect f1
      = colsKV (arg3.view.read (Elt F) f1) ⟨k.val, trips_le k⟩ := by
  funext j
  rw [View.readAt_apply, Memref.read_squeeze_slice arg3 _ (fun _ => rfl) squeezes_S1x2048x1024_S2048x1024 (by decide) f1,
    shapeCast_dropUnit_apply, View.readAt_apply]
  unfold colsKV
  refine congrArg _ (funext fun a => Fin.ext ?_)
  match a with
  | ⟨0, _⟩ => rfl
  | ⟨1, _⟩ =>
    show 0 + 1 * ((k1_off2 k) 0 + 1 * (j 0).val) = (j 0).val
    rw [off2_0]; omega
  | ⟨2, _⟩ =>
    show 0 + 1 * ((k1_off2 k) 1 + 1 * (j 1).val) = 128 * k.val + (j 1).val
    rw [off2_1]; omega

/-! ## Each piece is the block of `scr` at its rectangle -/

/-- The scratch function at an index of trip `k`'s rectangle is pair `k`'s output at the local index. -/
theorem scr_emb (x0 : Vec F S1x512x1024 .bf16) (x1 x2 : Vec F S1x2048x1024 .bf16) (k : Fin k1_t1_loop.trips) (x : S512x128.Idx) :
    scr x0 x1 x2 ((Rect.unit (s := S512x1024) (k1_off1 k) S512x128.size (k1_off1_inb k)).emb x)
      = headPair x0 x1 x2 ⟨k.val, trips_le k⟩ x := by
  have hx1 := ValueIdx.idx2_lt1 x
  have h0 : (((Rect.unit (s := S512x1024) (k1_off1 k) S512x128.size (k1_off1_inb k)).emb x 0 : Fin _) : ℕ) = (x 0).val := by
    rw [Rect.emb_apply]; simp [k1_off1_eq]
  have h1 : (((Rect.unit (s := S512x1024) (k1_off1 k) S512x128.size (k1_off1_inb k)).emb x 1 : Fin _) : ℕ) = 128 * k.val + (x 1).val := by
    rw [Rect.emb_apply]; simp [k1_off1_eq]
  unfold scr
  refine congr (congrArg _ (Fin.ext ?_)) (funext fun a => ?_)
  · show _ / 128 = k.val
    rw [h1]; omega
  · match a with
    | ⟨0, _⟩ => exact Fin.ext h0
    | ⟨1, _⟩ => exact Fin.ext (by show _ % 128 = (x 1).val; rw [h1]; omega)

/-- Trip `k`'s piece, over the squeezed input memrefs at the inputs' contents, is the block of `scr` of the input
    blocks at the trip's rectangle. -/
theorem piece_scr (arg2 : Memref sig .tc .vmem S1x512x1024 .bf16) (arg3 arg4 : Memref sig .tc .vmem S1x2048x1024 .bf16)
    (f0 : BufTy.Contents (Elt F) arg2.view.ty) (f1 : BufTy.Contents (Elt F) arg3.view.ty)
    (f2 : BufTy.Contents (Elt F) arg4.view.ty) (k : Fin k1_t1_loop.trips) (x : S512x128.Idx) :
    (piece (F := F) ((arg2.slice (Rect.unit (s := S1x512x1024) ![0, 0, 0] S1x512x1024.size inb_S1x512x1024_S1x512x1024_0_0_0) (fun _ => rfl)).squeeze S512x1024 squeezes_S1x512x1024_S512x1024) ((arg3.slice (Rect.unit (s := S1x2048x1024) ![0, 0, 0] S1x2048x1024.size inb_S1x2048x1024_S1x2048x1024_0_0_0) (fun _ => rfl)).squeeze S2048x1024 squeezes_S1x2048x1024_S2048x1024) ((arg4.slice (Rect.unit (s := S1x2048x1024) ![0, 0, 0] S1x2048x1024.size inb_S1x2048x1024_S1x2048x1024_0_0_0) (fun _ => rfl)).squeeze S2048x1024 squeezes_S1x2048x1024_S2048x1024) f0 f1 f2 k).2 x
      = scr (arg2.view.read (Elt F) f0) (arg3.view.read (Elt F) f1) (arg4.view.read (Elt F) f2)
          ((piece (F := F) ((arg2.slice (Rect.unit (s := S1x512x1024) ![0, 0, 0] S1x512x1024.size inb_S1x512x1024_S1x512x1024_0_0_0) (fun _ => rfl)).squeeze S512x1024 squeezes_S1x512x1024_S512x1024) ((arg3.slice (Rect.unit (s := S1x2048x1024) ![0, 0, 0] S1x2048x1024.size inb_S1x2048x1024_S1x2048x1024_0_0_0) (fun _ => rfl)).squeeze S2048x1024 squeezes_S1x2048x1024_S2048x1024) ((arg4.slice (Rect.unit (s := S1x2048x1024) ![0, 0, 0] S1x2048x1024.size inb_S1x2048x1024_S1x2048x1024_0_0_0) (fun _ => rfl)).squeeze S2048x1024 squeezes_S1x2048x1024_S2048x1024) f0 f1 f2 k).1.emb x) := by
  refine Eq.trans ?_ (scr_emb _ _ _ k x).symm
  unfold headPair
  rw [← loadQ arg2 f0 k, ← loadKV arg3 f1 k, ← loadKV arg4 f2 k]
  rfl

/-- The output's one store, at the whole block, covers it. -/
theorem cover_out (w : S1x512x1024.Idx → Elt F .f32) (y : S1x512x1024.Idx) :
    ∃ p ∈ ([⟨Rect.unit (s := S1x512x1024) ![0, 0, 0] S1x512x1024.size inb_S1x512x1024_S1x512x1024_0_0_0, w⟩] :
      List (View.Piece (Elt F) S1x512x1024 .f32)), y ∈ p.1.set :=
  ⟨_, List.mem_singleton_self _, View.mem_set_unit_zero zero3 inb_S1x512x1024_S1x512x1024_0_0_0 y⟩

/-! ## The body's triple -/

set_option maxHeartbeats 4000000 in
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1x512x1024 .f32) (harg6 : arg6.IsWhole)
    (arg7 : Memref sig .tc .vmem S512x1024 .bf16) (harg7 : arg7.IsWhole)
    (x0 : Vec F S1x512x1024 .bf16) (x1 x2 : Vec F S1x2048x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ g, owns (c : Thread nD τ) arg7 fullShare g)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)
            ∗ (∃ g, owns (c : Thread nD τ) arg7 fullShare g)) -∗ K ⟨⟩))
      ⊢ wp frame (wpE (defs₀ (F := F)) Variants.none c none) E
          (cc1__attn_kernel i arg2 harg2 arg3 harg3 arg4 harg4 arg5 harg5 arg6 harg6 arg7 harg7) K := by
  simp only [cc1__attn_kernel_eq_skeleton]; unfold cc1__attn_kernel_skel
  unfold owns
  have hs11 := set_squeeze_slice_zero arg2 (off := ![0, 0, 0]) zero3 inb_S1x512x1024_S1x512x1024_0_0_0 squeezes_S1x512x1024_S512x1024
  have hs16 := set_squeeze_slice_zero arg3 (off := ![0, 0, 0]) zero3 inb_S1x2048x1024_S1x2048x1024_0_0_0 squeezes_S1x2048x1024_S2048x1024
  have hs21 := set_squeeze_slice_zero arg4 (off := ![0, 0, 0]) zero3 inb_S1x2048x1024_S1x2048x1024_0_0_0 squeezes_S1x2048x1024_S2048x1024
  rw [← hs11, ← hs16, ← hs21]
  have hcanon_v11 : (arg2.slice (Rect.unit (s := S1x512x1024) ![0, 0, 0] S1x512x1024.size inb_S1x512x1024_S1x512x1024_0_0_0) (fun _ => rfl)).squeeze S512x1024 squeezes_S1x512x1024_S512x1024 = _ := rfl
  have hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = _ := rfl
  have hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = _ := rfl
  iintro ⟨⟨%f0, %hf0, H0⟩, ⟨%f1, %hf1, H1⟩, ⟨%f2, %hf2, H2⟩, ⟨%f3, %hf3, H3⟩, ⟨%d4, %f4, -, H4⟩, ⟨%g5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_out _), View.canon_unit_zero zero3]
    unfold out1_4
    refine congr (congrArg _ ?_) ?_
    · rw [View.readAt_eq_ld, View.ld_unit_zero zero2]
      funext y
      have hc := cover_pb (F := F) Variants.none c none i arg2 harg2 arg3 harg3 arg4 harg4 arg5 harg5 arg6 harg6 arg7 harg7 _ hcanon_v11 _ hcanon_v16 _ hcanon_v21 f0 f1 f2 y
      rw [View.read_writes_apply_eq_canon _ _ y _ hc]
      refine View.canon_apply_of_pieces _ _ (fun p hp x => ?_) y hc
      obtain ⟨k, rfl⟩ := mem_pb (F := F) Variants.none c none i arg2 harg2 arg3 harg3 arg4 harg4 arg5 harg5 arg6 harg6 arg7 harg7 _ hcanon_v11 _ hcanon_v16 _ hcanon_v21 f0 f1 f2 _ p hp
      exact piece_scr arg2 arg3 arg4 f0 f1 f2 k x
    · rw [View.readAt_eq_ld, View.ld_unit_zero zero2]
  iexists _, _; isplitr
  swap; · iexact H5
  ipureintro; rfl

end Cert.Kernel.Hand

end
-- ==== Proof.BitsBodyObl.lean ====
/-
  The two pipelines' body obligations: at every grid point the kernel body, called on the windows' current staging
  buffers — each input's holding its block, fetched at this point or kept from an earlier one — returns with the
  inputs' buffers as they were and the output's at the body's function of the input blocks. The attention body's
  scratch is among the scoped buffers the region's invariant carries, taken out for the call and put back.
-/
import proofs.«429044_j39298950759077_3_alg».proof.Proof.BitsDats
import proofs.«429044_j39298950759077_3_alg».proof.Proof.BitsBody0
import proofs.«429044_j39298950759077_3_alg».proof.Proof.BitsBody1
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection pipeline -/

/-- Input window 0's current staging buffer holds its block at every point, fetched there or not: unfetched, the
    block index has not moved since the fetch, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`: the invariant, what the core owes, and the three windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The attention pipeline -/

/-- Input window 0's current staging buffer holds its block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's likewise, fetched there or not: its block index moves only at the points ≡ 0 (mod 4), where it is fetched. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's likewise: its block index never moves, and it is fetched at the first point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- A whole buffer held at some contents is owned, through its whole memref, at some contents; -/
theorem owns_whole_of_held (c : Dev nD) (b : Ref sig .tc) :
    (iprop(∃ f : Buf (Elt F) ((c : Thread nD τ).loc b), ((c : Thread nD τ).loc b) ↦{fullShare} f) : sProp 𝕄)
      ⊢ iprop(∃ g, owns (c : Thread nD τ) (Memref.whole b) fullShare g) := by
  iintro ⟨%f, H⟩
  iexists f
  rw [owns_whole_eq]
  iexists f; isplitr; · ipureintro; rfl
  iexact H

/-- and conversely. -/
theorem held_of_owns_whole (c : Dev nD) (b : Ref sig .tc) :
    (iprop(∃ g, owns (c : Thread nD τ) (Memref.whole b) fullShare g) : sProp 𝕄)
      ⊢ iprop(∃ f : Buf (Elt F) ((c : Thread nD τ).loc b), ((c : Thread nD τ).loc b) ↦{fullShare} f) := by
  simp only [owns_whole_eq]
  iintro ⟨%g, %f, -, H⟩
  iexists f; iexact H

/-- What the body is called with at point `t`: the invariant, what the core owes, and the five windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks; the scratch is the last of the scoped buffers the
    invariant holds at some contents each, taken out for the body's run and put back, at whatever the run leaves in
    it, to form the invariant again; the other scoped buffers, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3, after1_4]
  unfold Pipeline.ΦA
  rw [scopedRest1_eq]
  iintro ⟨⟨⟨Hs0, Hs1, Hs2, Hs3, Hs4, Hs5, Hscr⟩, Hr⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [Hscr]; · iapply (owns_whole_of_held c cc1_scratch0); iexact Hscr
  iintro ⟨H0, H1, H2, H3, H4, Hscr⟩
  isplitl [Hs0 Hs1 Hs2 Hs3 Hs4 Hs5 Hscr Hr]
  · isplitr [Hr]; swap; · iexact Hr
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iapply (held_of_owns_whole c cc1_scratch0); iexact Hscr
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsShares.lean ====
/-
  The attention pipeline's arrays among the core's unscoped buffers. Three of its windows read ONE array (the packed
  projections), so at the region's entry that array's full share is dealt in three — a half, and the two halves of
  the other half — and at its exit the three shares are joined again; the weight array and the result array are
  held whole. Every other unscoped buffer bypasses the region.
-/
import proofs.«429044_j39298950759077_3_alg».proof.Proof.BitsDats
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two assertions that entail one another are equal. -/
theorem eq_of_bi {P Q : sProp 𝕄} (h : P ⊣⊢ Q) : P = Q :=
  sProp.ext fun a => ⟨h.mp a, h.mpr a⟩

/-- Three conjuncts beside two more, regrouped as five in a row. -/
theorem regroup (A B C D E : sProp 𝕄) : iprop((A ∗ B ∗ C) ∗ D ∗ E) ⊣⊢ iprop(A ∗ B ∗ C ∗ D ∗ E) := by
  constructor
  · iintro ⟨⟨Ha, Hb, Hc⟩, Hd, He⟩
    isplitl [Ha]; · iexact Ha
    isplitl [Hb]; · iexact Hb
    isplitl [Hc]; · iexact Hc
    isplitl [Hd]; · iexact Hd
    iexact He
  · iintro ⟨Ha, Hb, Hc, Hd, He⟩
    isplitl [Ha Hb Hc]
    · isplitl [Ha]; · iexact Ha
      isplitl [Hb]; · iexact Hb
      iexact Hc
    · isplitl [Hd]; · iexact Hd
      iexact He

/-- The distinct buffers behind the five windows' arrays: the packed projections, the weights, the result. -/
theorem arrRefs1 : (Finset.univ.image (Pipeline.arrRef spec1) : Finset (Ref sig .tc)) = {main_v9, main_v7, main_v10} := by
  decide

/-- Those three buffers, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v9) ↦{fullShare} W main_v9) ∗ (((c : Thread nD τ).loc main_v7) ↦{fullShare} W main_v7)
          ∗ (((c : Thread nD τ).loc main_v10) ↦{fullShare} W main_v10)) := by
  unfold Pipeline.arrBufs
  rw [arrRefs1, bigSep_insert (by decide), bigSep_insert (by decide), bigSep_singleton]
  rfl

/-- A full share dealt in three: a half, and the two halves of the other half. -/
theorem deal3 {ℓ : Loc nD τ sig} (f : Buf (Elt F) ℓ) :
    (ℓ ↦{fullShare} f : sProp 𝕄)
      = iprop((ℓ ↦{fullShare.left} f) ∗ (ℓ ↦{fullShare.right.left} f) ∗ (ℓ ↦{fullShare.right.right} f)) := by
  rw [eq_of_bi (pointsTo_share (PosShare.mem_left_op_right fullShare)),
    eq_of_bi (pointsTo_share (PosShare.mem_left_op_right fullShare.right))]

/-- The pipeline's five arrays at contents `G`: the packed projections at the three shares, the weights and the
    result whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v9) ↦{fullShare.left} G 0) ∗ (((c : Thread nD τ).loc main_v9) ↦{fullShare.right.left} G 1)
          ∗ (((c : Thread nD τ).loc main_v9) ↦{fullShare.right.right} G 2) ∗ (((c : Thread nD τ).loc main_v7) ↦{fullShare} G 3)
          ∗ (((c : Thread nD τ).loc main_v10) ↦{fullShare} G 4)) := by
  have h : ((dat1 V c).arrays G : sProp 𝕄)
      = bigSep Finset.univ fun w : Fin 5 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY: the core's unscoped buffers at `V c` are the pipeline's arrays at their entry contents, each window at
    its share, and the unscoped rest. -/
theorem arrays_of_unscopedBufs1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrays1_eq, arrBufs1_eq, deal3 (V c main_v9)]
  exact (regroup (F := F) _ _ _ _ _).mp

/-- EXIT: the arrays at their final contents and the unscoped rest are the core's unscoped buffers at any contents
    `V'` that has the result array at what the pipeline leaves and agrees with `V c` elsewhere. -/
theorem unscopedBufs_of_arrays1 (c : Dev nD) (V' : (b : Ref sig .tc) → Buf (Elt F) ((c : Thread nD τ).loc b))
    (hout : V' main_v10 = (dat1 V c).arrAt 4 cfg1.N) (hrest : ∀ b : Ref sig .tc, b ≠ main_v10 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    rw [arrays1_eq, arrBufs1_eq, deal3 (V' main_v9), hout, hrest main_v9 (by decide), hrest main_v7 (by decide),
      (dat1 V c).arrAt_in 0 rfl cfg1.N, (dat1 V c).arrAt_in 1 rfl cfg1.N, (dat1 V c).arrAt_in 2 rfl cfg1.N,
      (dat1 V c).arrAt_in 3 rfl cfg1.N]
    exact (regroup (F := F) _ _ _ _ _).mpr
  · unfold Pipeline.unscopedRest
    refine bigSep_congr fun b hb => ?_
    rw [hrest b (fun e => (Finset.mem_sdiff.mp hb).2 (e ▸ (by decide)))]

end Cert.Kernel.Hand

end
-- ==== Proof.Outs.lean ====
/-
  What each kernel body leaves in its output window's buffer, as a function of the contents of its input windows'
  buffers, at any float instance. The projection body: the whole block's payload. The attention body: for each of
  the eight pairs of heads the payload of the three 128-column strips of the query, key and value blocks, laid side
  by side into the 512 × 1024 scratch, then the output projection's payload of that scratch and the weight block.
-/
import proofs.«429044_j39298950759077_3_alg».proof.Proof.Gen.KernelIdeal.Skeleton
import Idealize.ShloMosaic.Lib.ValueIdx

noncomputable section

namespace Cert.KernelIdeal.Hand

open Idealize.ShloMosaic Idealize.ShloMosaic.TcCoe Idealize.SL.Sem
open Cert.KernelIdeal Cert.KernelIdeal.Gen

variable {F : FTy → Type} [FloatOps F]

/-- The projection body's output block: the payload of the two input blocks read whole. -/
def out0_2 (x0 : Vec F S1024x1024 .f32) (x1 : Vec F S1024x1024 .bf16) : Vec F S1024x1024 .bf16 := k0_pay1 x0 x1

/-- Columns 128·p … 128·p + 127 of the query block (its leading unit axis dropped). -/
def colsQ (x0 : Vec F S1x512x1024 .bf16) (p : Fin 8) : Vec F S512x128 .bf16 :=
  fun i => x0 (ValueIdx.ix3 (0 : Fin 1) (i 0) ⟨128 * p.val + (i 1).val, by have := p.isLt; have := ValueIdx.idx2_lt1 i; omega⟩)

/-- Columns 128·p … 128·p + 127 of a key or value block (its leading unit axis dropped). -/
def colsKV (x : Vec F S1x2048x1024 .bf16) (p : Fin 8) : Vec F S2048x128 .bf16 :=
  fun i => x (ValueIdx.ix3 (0 : Fin 1) (i 0) ⟨128 * p.val + (i 1).val, by have := p.isLt; have := ValueIdx.idx2_lt1 i; omega⟩)

/-- What one trip of the head-pair loop stores: the two heads' normalised outputs side by side. -/
def headPair (x0 : Vec F S1x512x1024 .bf16) (x1 x2 : Vec F S1x2048x1024 .bf16) (p : Fin 8) : Vec F S512x128 .bf16 :=
  k1_pay1 (k1_pay6 (colsKV x2 p)) (k1_pay7 (colsQ x0 p) (colsKV x1 p) (colsKV x2 p)) (k1_pay8 (colsQ x0 p) (colsKV x1 p))
    (k1_pay9 (colsQ x0 p) (colsKV x1 p))

/-- The scratch after the loop: strip p holds pair p's output. -/
def scr (x0 : Vec F S1x512x1024 .bf16) (x1 x2 : Vec F S1x2048x1024 .bf16) : Vec F S512x1024 .bf16 :=
  fun y => headPair x0 x1 x2 ⟨(y 1).val / 128, by have := ValueIdx.idx2_lt1 y; omega⟩
    (ValueIdx.ix2 (y 0) ⟨(y 1).val % 128, Nat.mod_lt _ (by decide)⟩)

/-- The attention body's output block: the output projection of the scratch by the weight block. -/
def out1_4 (x0 : Vec F S1x512x1024 .bf16) (x1 x2 : Vec F S1x2048x1024 .bf16) (x3 : Vec F S1024x1024 .bf16) : Vec F S1x512x1024 .f32 :=
  k1_pay2 (scr x0 x1 x2) x3

end Cert.KernelIdeal.Hand

end
-- ==== Proof.Dats.lean ====
/-
  The proof data of the two pipelines, at any contents `V` of the TensorCore's buffers when the region is entered:
  each window's block at a grid point read off its array, and after the body each input's staging buffer at its block
  and the output's at the body's function of the input blocks. In the second pipeline three windows read one array
  (the packed projections, at three column blocks), which the core holds in three shares.
-/
import proofs.«429044_j39298950759077_3_alg».proof.Proof.Outs
import proofs.«429044_j39298950759077_3_alg».proof.Proof.Gen.KernelIdeal.Launch
import proofs.«429044_j39298950759077_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection pipeline -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the two inputs' buffers at their blocks, the output's at the body's function of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The attention pipeline -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the four inputs' buffers at their blocks, the output's at the body's function of
    them. The packed projections' array is read by windows 0, 1 and 2: the core holds it in three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.KernelIdeal.Hand

end
-- ==== Proof.Body0.lean ====
/-
  The projection kernel's body run once: from its two input staging buffers held whole at given contents and its
  output staging buffer at any contents, it returns with the inputs as they were and the output at the block
  `out0_2` of the inputs.
-/
import proofs.«429044_j39298950759077_3_alg».proof.Proof.Outs
import proofs.«429044_j39298950759077_3_alg».proof.Proof.Gen.KernelIdeal.Loops
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sound_kernel0 (c : Dev nD) (E : Set ℕ) (i : grid0.Coords)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (x0 : Vec F S1024x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  -- the printed body is its skeleton: three whole-buffer loads, then one whole-buffer store of the payload
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store's rectangle is the whole block at zero offsets: it covers every index, so the buffer read back is
  -- the stored payload, and each whole-block load read the input's contents as they stand
  have hz : (![0, 0] : Fin 2 → ℕ) = fun _ => 0 := by funext a; fin_cases a <;> rfl
  refine (View.read_writes_eq_canon _ _ _ ?_).trans ?_
  · intro y
    exact ⟨_, List.mem_singleton_self _, View.mem_set_unit_zero hz inb_S1024x1024_S1024x1024_0_0 y⟩
  rw [View.canon_unit_zero hz]
  unfold out0_2
  simp only [View.readAt_eq_ld, View.ld_unit_zero (S := S1024x1024) hz]

end Cert.KernelIdeal.Hand

end
-- ==== Proof.Body1.lean ====
/-
  The attention kernel's body run once: from its four input staging buffers held whole at given contents, its
  output staging buffer and its scratch at any contents, it returns with the inputs as they were, the output at
  the block `out1_4` of the inputs, and the scratch at some contents.

  The body's loop over the eight pairs of heads is run through its invariant: before trip `k` the scratch holds the
  pieces of the trips before `k` written over whatever it held at entry. Trip `k`'s one piece is the store, at columns
  128·k … 128·k + 127, of the pair's payload of the three column strips the trip loads. The eight pieces tile the
  scratch and each is the block of the one function `scr` at its rectangle, so the scratch read whole after the loop
  is `scr` of the inputs, whatever it held before; the output projection's payload of it is `out1_4`.
-/
import proofs.«429044_j39298950759077_3_alg».proof.Proof.Outs
import proofs.«429044_j39298950759077_3_alg».proof.Proof.Gen.KernelIdeal.Loops
import Idealize.ShloMosaic.Lib.Pipeline.FrameBody
import Idealize.ShloMosaic.Lib.Tactic
import Mathlib.Tactic.FinCases
import Idealize.ShloMosaic.Lib.WordExact
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The squeezed input memrefs go through their buffers' own elements -/

/-- The squeeze of the slice of a memref at the whole rectangle (zero offsets, the memref's own sizes) goes through
    the memref's own buffer elements. -/
theorem set_squeeze_slice_zero {σ : RefSig} {κ : Kind} {sp : Space} {s s' : Shape} {e : EltTy} (M : Memref σ κ sp s e)
    {off : Fin s.rank → ℕ} (h : off = fun _ => 0) (inb : ∀ a, off a + s.size a ≤ s.size a)
    (hq : (Rect.unit off s.size inb).shape.Squeezes s') :
    ((M.slice (Rect.unit off s.size inb) (fun _ => rfl)).squeeze s' hq).view.set = M.view.set := by
  subst h
  exact (View.set_reshape (v := M.view.slice (Rect.unit (fun _ => 0) s.size inb)) hq.numel_eq).trans
    (View.set_slice_rectWhole M.view)

theorem zero3 : (![0, 0, 0] : Fin 3 → ℕ) = fun _ => 0 := by
  funext a; fin_cases a <;> rfl

theorem zero2 : (![0, 0] : Fin 2 → ℕ) = fun _ => 0 := by
  funext a; fin_cases a <;> rfl

/-! ## The loop's trips and their pieces -/

/-- The loop makes eight trips. -/
theorem trips8 : k1_t1_loop.trips = 8 := by decide

theorem trips_le (k : Fin k1_t1_loop.trips) : k.val < 8 := Nat.lt_of_lt_of_le k.isLt k1_t1_abs.2.1

theorem off1_0 (k : Fin k1_t1_loop.trips) : (k1_off1 k) 0 = 0 := by rw [k1_off1_eq]; rfl
theorem off1_1 (k : Fin k1_t1_loop.trips) : (k1_off1 k) 1 = 128 * k.val := by rw [k1_off1_eq]; rfl
theorem off2_0 (k : Fin k1_t1_loop.trips) : (k1_off2 k) 0 = 0 := by rw [k1_off2_eq]; rfl
theorem off2_1 (k : Fin k1_t1_loop.trips) : (k1_off2 k) 1 = 128 * k.val := by rw [k1_off2_eq]; rfl

/-- What trip `k` stores into the scratch: at columns 128·k … 128·k + 127, the payload of the trip's three loads. -/
def piece (mv_v11 : Memref sig .tc .vmem S512x1024 .bf16) (mv_v16 mv_v21 : Memref sig .tc .vmem S2048x1024 .bf16)
    (X_v11 : BufTy.Contents (Elt F) mv_v11.view.ty) (X_v16 : BufTy.Contents (Elt F) mv_v16.view.ty)
    (X_v21 : BufTy.Contents (Elt F) mv_v21.view.ty) (k : Fin k1_t1_loop.trips) : View.Piece (Elt F) S512x1024 .bf16 :=
  ⟨Rect.unit (s := S512x1024) (k1_off1 k) S512x128.size (k1_off1_inb k),
    k1_pay1
      (k1_pay6 (View.readAt (Elt F) mv_v21.view (Rect.unit (s := S2048x1024) (k1_off2 k) S2048x128.size (k1_off2_inb k)).toLoadRect X_v21))
      (k1_pay7 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16)
        (View.readAt (Elt F) mv_v21.view (Rect.unit (s := S2048x1024) (k1_off2 k) S2048x128.size (k1_off2_inb k)).toLoadRect X_v21))
      (k1_pay8 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16))
      (k1_pay9 (View.readAt (Elt F) mv_v11.view (Rect.unit (s := S512x1024) (k1_off1 k) S512x128.size (k1_off1_inb k)).toLoadRect X_v11)
        (View.readAt (Elt F) mv_v16.view (Rect.unit (s := S2048x1024) (k1_off2 k) S2048x128.size (k1_off2_inb k)).toLoadRect X_v16))⟩

/-- One trip's piece list is that one piece: the trip's definition unfolded. -/
theorem tripL_eq (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (k : Fin k1_t1_loop.trips) :
    tripL_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 k = [piece mv_v11 mv_v16 mv_v21 X_v11 X_v16 X_v21 k] := by
  unfold tripL_k1_t1 trip_k1_t1
  rfl

/-- Every piece written before trip `n` is some trip's piece. -/
theorem mem_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) :
    ∀ (n : ℕ) (p : View.Piece (Elt F) S512x1024 .bf16), p ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 n →
      ∃ k : Fin k1_t1_loop.trips, p = piece mv_v11 mv_v16 mv_v21 X_v11 X_v16 X_v21 k
  | 0, p, hp => by rw [pb_k1_t1.eq_1] at hp; exact absurd hp List.not_mem_nil
  | n + 1, p, hp => by
    rw [pb_k1_t1.eq_2] at hp; unfold pb_k1_t1Step at hp
    by_cases h : n < k1_t1_loop.trips
    · rw [dif_pos h, List.mem_append, tripL_eq] at hp
      rcases hp with hp | hp
      · exact ⟨⟨n, h⟩, List.mem_singleton.mp hp⟩
      · exact mem_pb 𝒱 c bd i arg2 harg2 arg3 harg3 arg4 harg4 arg5 harg5 arg6 harg6 arg7 harg7 mv_v11 hcanon_v11 mv_v16 hcanon_v16 mv_v21 hcanon_v21 X_v11 X_v16 X_v21 n p hp
    · rw [dif_neg h] at hp
      exact mem_pb 𝒱 c bd i arg2 harg2 arg3 harg3 arg4 harg4 arg5 harg5 arg6 harg6 arg7 harg7 mv_v11 hcanon_v11 mv_v16 hcanon_v16 mv_v21 hcanon_v21 X_v11 X_v16 X_v21 n p hp

/-- Trip `k`'s piece is among those written before any later trip. -/
theorem piece_mem_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (k : Fin k1_t1_loop.trips) :
    ∀ n : ℕ, k.val < n → piece mv_v11 mv_v16 mv_v21 X_v11 X_v16 X_v21 k ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 n
  | 0, h => absurd h (Nat.not_lt_zero _)
  | n + 1, h => by
    rw [pb_k1_t1.eq_2]; unfold pb_k1_t1Step
    by_cases hn : n < k1_t1_loop.trips
    · rw [dif_pos hn, List.mem_append, tripL_eq]
      rcases Nat.lt_succ_iff_lt_or_eq.mp h with h' | h'
      · exact Or.inr (piece_mem_pb 𝒱 c bd i arg2 harg2 arg3 harg3 arg4 harg4 arg5 harg5 arg6 harg6 arg7 harg7 mv_v11 hcanon_v11 mv_v16 hcanon_v16 mv_v21 hcanon_v21 X_v11 X_v16 X_v21 k n h')
      · have hk : k = ⟨n, hn⟩ := Fin.ext h'
        subst hk
        exact Or.inl (List.mem_singleton_self _)
    · rw [dif_neg hn]
      exact piece_mem_pb 𝒱 c bd i arg2 harg2 arg3 harg3 arg4 harg4 arg5 harg5 arg6 harg6 arg7 harg7 mv_v11 hcanon_v11 mv_v16 hcanon_v16 mv_v21 hcanon_v21 X_v11 X_v16 X_v21 k n (by have := k.isLt; omega)

/-- The eight trips' rectangles cover the scratch: column `y 1` lies in trip `y 1 / 128`'s strip. -/
theorem cover_pb (𝒱 : Variants) (c : Dev nD) (bd : Option 𝒱.V) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S512x1024 .bf16) (harg7 : arg7.IsWhole) (mv_v11 : Memref sig .tc .vmem S512x1024 .bf16) (hcanon_v11 : (arg2.slice (Rect.unit (s := S1x512x1024) ![0, 0, 0] S1x512x1024.size inb_S1x512x1024_S1x512x1024_0_0_0) (fun _ => rfl)).squeeze S512x1024 squeezes_S1x512x1024_S512x1024 = mv_v11) (mv_v16 : Memref sig .tc .vmem S2048x1024 .bf16) (hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = mv_v16) (mv_v21 : Memref sig .tc .vmem S2048x1024 .bf16) (hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = mv_v21) (X_v11 : BufTy.Contents (Elt F) mv_v11.view.ty) (X_v16 : BufTy.Contents (Elt F) mv_v16.view.ty) (X_v21 : BufTy.Contents (Elt F) mv_v21.view.ty) (y : S512x1024.Idx) :
    ∃ p ∈ pb_k1_t1 (F := F) 𝒱 c bd i arg2 harg2 arg3 harg3 arg4 harg4 arg5 harg5 arg6 harg6 arg7 harg7 mv_v11 hcanon_v11 mv_v16 hcanon_v16 mv_v21 hcanon_v21 X_v11 X_v16 X_v21 k1_t1_loop.trips, y ∈ p.1.set := by
  have hy0 := ValueIdx.idx2_lt0 y
  have hy1 := ValueIdx.idx2_lt1 y
  have hk : (y 1).val / 128 < k1_t1_loop.trips := by rw [trips8]; omega
  refine ⟨_, piece_mem_pb 𝒱 c bd i arg2 harg2 arg3 harg3 arg4 harg4 arg5 harg5 arg6 harg6 arg7 harg7 mv_v11 hcanon_v11 mv_v16 hcanon_v16 mv_v21 hcanon_v21 X_v11 X_v16 X_v21 ⟨(y 1).val / 128, hk⟩ _ hk, ?_⟩
  show y ∈ (Rect.unit (s := S512x1024) (k1_off1 ⟨(y 1).val / 128, hk⟩) S512x128.size (k1_off1_inb _)).set
  rw [Rect.mem_set_unit]
  intro a
  match a with
  | ⟨0, _⟩ =>
    show (k1_off1 ⟨(y 1).val / 128, hk⟩) 0 ≤ (y 0).val ∧ (y 0).val < (k1_off1 ⟨(y 1).val / 128, hk⟩) 0 + 512
    rw [off1_0]; omega
  | ⟨1, _⟩ =>
    show (k1_off1 ⟨(y 1).val / 128, hk⟩) 1 ≤ (y 1).val ∧ (y 1).val < (k1_off1 ⟨(y 1).val / 128, hk⟩) 1 + 128
    rw [off1_1]; show 128 * ((y 1).val / 128) ≤ (y 1).val ∧ (y 1).val < 128 * ((y 1).val / 128) + 128; omega

/-! ## What a trip's loads read: the column strips of the input blocks -/

/-- The load of trip `k` through the squeezed query memref reads the query block's columns 128·k … 128·k + 127. -/
theorem loadQ (arg2 : Memref sig .tc .vmem S1x512x1024 .bf16) (f0 : BufTy.Contents (Elt F) arg2.view.ty)
    (k : Fin k1_t1_loop.trips) :
    View.readAt (Elt F) ((arg2.slice (Rect.unit (s := S1x512x1024) ![0, 0, 0] S1x512x1024.size inb_S1x512x1024_S1x512x1024_0_0_0) (fun _ => rfl)).squeeze S512x1024 squeezes_S1x512x1024_S512x1024).view
        (Rect.unit (s := S512x1024) (k1_off1 k) S512x128.size (k1_off1_inb k)).toLoadRect f0
      = colsQ (arg2.view.read (Elt F) f0) ⟨k.val, trips_le k⟩ := by
  funext j
  rw [View.readAt_apply, Memref.read_squeeze_slice arg2 _ (fun _ => rfl) squeezes_S1x512x1024_S512x1024 (by decide) f0,
    shapeCast_dropUnit_apply, View.readAt_apply]
  unfold colsQ
  refine congrArg _ (funext fun a => Fin.ext ?_)
  match a with
  | ⟨0, _⟩ => rfl
  | ⟨1, _⟩ =>
    show 0 + 1 * ((k1_off1 k) 0 + 1 * (j 0).val) = (j 0).val
    rw [off1_0]; omega
  | ⟨2, _⟩ =>
    show 0 + 1 * ((k1_off1 k) 1 + 1 * (j 1).val) = 128 * k.val + (j 1).val
    rw [off1_1]; omega

/-- The load of trip `k` through a squeezed key or value memref reads that block's columns 128·k … 128·k + 127. -/
theorem loadKV (arg3 : Memref sig .tc .vmem S1x2048x1024 .bf16) (f1 : BufTy.Contents (Elt F) arg3.view.ty)
    (k : Fin k1_t1_loop.trips) :
    View.readAt (Elt F) ((arg3.slice (Rect.unit (s := S1x2048x1024) ![0, 0, 0] S1x2048x1024.size inb_S1x2048x1024_S1x2048x1024_0_0_0) (fun _ => rfl)).squeeze S2048x1024 squeezes_S1x2048x1024_S2048x1024).view
        (Rect.unit (s := S2048x1024) (k1_off2 k) S2048x128.size (k1_off2_inb k)).toLoadRect f1
      = colsKV (arg3.view.read (Elt F) f1) ⟨k.val, trips_le k⟩ := by
  funext j
  rw [View.readAt_apply, Memref.read_squeeze_slice arg3 _ (fun _ => rfl) squeezes_S1x2048x1024_S2048x1024 (by decide) f1,
    shapeCast_dropUnit_apply, View.readAt_apply]
  unfold colsKV
  refine congrArg _ (funext fun a => Fin.ext ?_)
  match a with
  | ⟨0, _⟩ => rfl
  | ⟨1, _⟩ =>
    show 0 + 1 * ((k1_off2 k) 0 + 1 * (j 0).val) = (j 0).val
    rw [off2_0]; omega
  | ⟨2, _⟩ =>
    show 0 + 1 * ((k1_off2 k) 1 + 1 * (j 1).val) = 128 * k.val + (j 1).val
    rw [off2_1]; omega

/-! ## Each piece is the block of `scr` at its rectangle -/

/-- The scratch function at an index of trip `k`'s rectangle is pair `k`'s output at the local index. -/
theorem scr_emb (x0 : Vec F S1x512x1024 .bf16) (x1 x2 : Vec F S1x2048x1024 .bf16) (k : Fin k1_t1_loop.trips) (x : S512x128.Idx) :
    scr x0 x1 x2 ((Rect.unit (s := S512x1024) (k1_off1 k) S512x128.size (k1_off1_inb k)).emb x)
      = headPair x0 x1 x2 ⟨k.val, trips_le k⟩ x := by
  have hx1 := ValueIdx.idx2_lt1 x
  have h0 : (((Rect.unit (s := S512x1024) (k1_off1 k) S512x128.size (k1_off1_inb k)).emb x 0 : Fin _) : ℕ) = (x 0).val := by
    rw [Rect.emb_apply]; simp [k1_off1_eq]
  have h1 : (((Rect.unit (s := S512x1024) (k1_off1 k) S512x128.size (k1_off1_inb k)).emb x 1 : Fin _) : ℕ) = 128 * k.val + (x 1).val := by
    rw [Rect.emb_apply]; simp [k1_off1_eq]
  unfold scr
  refine congr (congrArg _ (Fin.ext ?_)) (funext fun a => ?_)
  · show _ / 128 = k.val
    rw [h1]; omega
  · match a with
    | ⟨0, _⟩ => exact Fin.ext h0
    | ⟨1, _⟩ => exact Fin.ext (by show _ % 128 = (x 1).val; rw [h1]; omega)

/-- Trip `k`'s piece, over the squeezed input memrefs at the inputs' contents, is the block of `scr` of the input
    blocks at the trip's rectangle. -/
theorem piece_scr (arg2 : Memref sig .tc .vmem S1x512x1024 .bf16) (arg3 arg4 : Memref sig .tc .vmem S1x2048x1024 .bf16)
    (f0 : BufTy.Contents (Elt F) arg2.view.ty) (f1 : BufTy.Contents (Elt F) arg3.view.ty)
    (f2 : BufTy.Contents (Elt F) arg4.view.ty) (k : Fin k1_t1_loop.trips) (x : S512x128.Idx) :
    (piece (F := F) ((arg2.slice (Rect.unit (s := S1x512x1024) ![0, 0, 0] S1x512x1024.size inb_S1x512x1024_S1x512x1024_0_0_0) (fun _ => rfl)).squeeze S512x1024 squeezes_S1x512x1024_S512x1024) ((arg3.slice (Rect.unit (s := S1x2048x1024) ![0, 0, 0] S1x2048x1024.size inb_S1x2048x1024_S1x2048x1024_0_0_0) (fun _ => rfl)).squeeze S2048x1024 squeezes_S1x2048x1024_S2048x1024) ((arg4.slice (Rect.unit (s := S1x2048x1024) ![0, 0, 0] S1x2048x1024.size inb_S1x2048x1024_S1x2048x1024_0_0_0) (fun _ => rfl)).squeeze S2048x1024 squeezes_S1x2048x1024_S2048x1024) f0 f1 f2 k).2 x
      = scr (arg2.view.read (Elt F) f0) (arg3.view.read (Elt F) f1) (arg4.view.read (Elt F) f2)
          ((piece (F := F) ((arg2.slice (Rect.unit (s := S1x512x1024) ![0, 0, 0] S1x512x1024.size inb_S1x512x1024_S1x512x1024_0_0_0) (fun _ => rfl)).squeeze S512x1024 squeezes_S1x512x1024_S512x1024) ((arg3.slice (Rect.unit (s := S1x2048x1024) ![0, 0, 0] S1x2048x1024.size inb_S1x2048x1024_S1x2048x1024_0_0_0) (fun _ => rfl)).squeeze S2048x1024 squeezes_S1x2048x1024_S2048x1024) ((arg4.slice (Rect.unit (s := S1x2048x1024) ![0, 0, 0] S1x2048x1024.size inb_S1x2048x1024_S1x2048x1024_0_0_0) (fun _ => rfl)).squeeze S2048x1024 squeezes_S1x2048x1024_S2048x1024) f0 f1 f2 k).1.emb x) := by
  refine Eq.trans ?_ (scr_emb _ _ _ k x).symm
  unfold headPair
  rw [← loadQ arg2 f0 k, ← loadKV arg3 f1 k, ← loadKV arg4 f2 k]
  rfl

/-- The output's one store, at the whole block, covers it. -/
theorem cover_out (w : S1x512x1024.Idx → Elt F .f32) (y : S1x512x1024.Idx) :
    ∃ p ∈ ([⟨Rect.unit (s := S1x512x1024) ![0, 0, 0] S1x512x1024.size inb_S1x512x1024_S1x512x1024_0_0_0, w⟩] :
      List (View.Piece (Elt F) S1x512x1024 .f32)), y ∈ p.1.set :=
  ⟨_, List.mem_singleton_self _, View.mem_set_unit_zero zero3 inb_S1x512x1024_S1x512x1024_0_0_0 y⟩

/-! ## The body's triple -/

set_option maxHeartbeats 4000000 in
theorem sound_kernel1 (c : Dev nD) (E : Set ℕ) (i : grid1.Coords)
    (arg2 : Memref sig .tc .vmem S1x512x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1x512x1024 .f32) (harg6 : arg6.IsWhole)
    (arg7 : Memref sig .tc .vmem S512x1024 .bf16) (harg7 : arg7.IsWhole)
    (x0 : Vec F S1x512x1024 .bf16) (x1 x2 : Vec F S1x2048x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ g, owns (c : Thread nD τ) arg7 fullShare g)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)
            ∗ (∃ g, owns (c : Thread nD τ) arg7 fullShare g)) -∗ K ⟨⟩))
      ⊢ wp frame (wpE (defs₀ (F := F)) Variants.none c none) E
          (cc1__attn_kernel i arg2 harg2 arg3 harg3 arg4 harg4 arg5 harg5 arg6 harg6 arg7 harg7) K := by
  simp only [cc1__attn_kernel_eq_skeleton]; unfold cc1__attn_kernel_skel
  unfold owns
  have hs11 := set_squeeze_slice_zero arg2 (off := ![0, 0, 0]) zero3 inb_S1x512x1024_S1x512x1024_0_0_0 squeezes_S1x512x1024_S512x1024
  have hs16 := set_squeeze_slice_zero arg3 (off := ![0, 0, 0]) zero3 inb_S1x2048x1024_S1x2048x1024_0_0_0 squeezes_S1x2048x1024_S2048x1024
  have hs21 := set_squeeze_slice_zero arg4 (off := ![0, 0, 0]) zero3 inb_S1x2048x1024_S1x2048x1024_0_0_0 squeezes_S1x2048x1024_S2048x1024
  rw [← hs11, ← hs16, ← hs21]
  have hcanon_v11 : (arg2.slice (Rect.unit (s := S1x512x1024) ![0, 0, 0] S1x512x1024.size inb_S1x512x1024_S1x512x1024_0_0_0) (fun _ => rfl)).squeeze S512x1024 squeezes_S1x512x1024_S512x1024 = _ := rfl
  have hcanon_v16 : (arg3.slice (Rect.unit (s := S1x2048x1024) ![0, 0, 0] S1x2048x1024.size inb_S1x2048x1024_S1x2048x1024_0_0_0) (fun _ => rfl)).squeeze S2048x1024 squeezes_S1x2048x1024_S2048x1024 = _ := rfl
  have hcanon_v21 : (arg4.slice (Rect.unit (s := S1x2048x1024) ![0, 0, 0] S1x2048x1024.size inb_S1x2048x1024_S1x2048x1024_0_0_0) (fun _ => rfl)).squeeze S2048x1024 squeezes_S1x2048x1024_S2048x1024 = _ := rfl
  iintro ⟨⟨%f0, %hf0, H0⟩, ⟨%f1, %hf1, H1⟩, ⟨%f2, %hf2, H2⟩, ⟨%f3, %hf3, H3⟩, ⟨%d4, %f4, -, H4⟩, ⟨%g5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_out _), View.canon_unit_zero zero3]
    unfold out1_4
    refine congr (congrArg _ ?_) ?_
    · rw [View.readAt_eq_ld, View.ld_unit_zero zero2]
      funext y
      have hc := cover_pb (F := F) Variants.none c none i arg2 harg2 arg3 harg3 arg4 harg4 arg5 harg5 arg6 harg6 arg7 harg7 _ hcanon_v11 _ hcanon_v16 _ hcanon_v21 f0 f1 f2 y
      rw [View.read_writes_apply_eq_canon _ _ y _ hc]
      refine View.canon_apply_of_pieces _ _ (fun p hp x => ?_) y hc
      obtain ⟨k, rfl⟩ := mem_pb (F := F) Variants.none c none i arg2 harg2 arg3 harg3 arg4 harg4 arg5 harg5 arg6 harg6 arg7 harg7 _ hcanon_v11 _ hcanon_v16 _ hcanon_v21 f0 f1 f2 _ p hp
      exact piece_scr arg2 arg3 arg4 f0 f1 f2 k x
    · rw [View.readAt_eq_ld, View.ld_unit_zero zero2]
  iexists _, _; isplitr
  swap; · iexact H5
  ipureintro; rfl

end Cert.KernelIdeal.Hand

end
-- ==== Proof.BodyObl.lean ====
/-
  The two pipelines' body obligations: at every grid point the kernel body, called on the windows' current staging
  buffers — each input's holding its block, fetched at this point or kept from an earlier one — returns with the
  inputs' buffers as they were and the output's at the body's function of the input blocks. The attention body's
  scratch is among the scoped buffers the region's invariant carries, taken out for the call and put back.
-/
import proofs.«429044_j39298950759077_3_alg».proof.Proof.Dats
import proofs.«429044_j39298950759077_3_alg».proof.Proof.Body0
import proofs.«429044_j39298950759077_3_alg».proof.Proof.Body1
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection pipeline -/

/-- Input window 0's current staging buffer holds its block at every point, fetched there or not: unfetched, the
    block index has not moved since the fetch, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`: the invariant, what the core owes, and the three windows' current
    staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The attention pipeline -/

/-- Input window 0's current staging buffer holds its block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's likewise, fetched there or not: its block index moves only at the points ≡ 0 (mod 4), where it is fetched. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's likewise: its block index never moves, and it is fetched at the first point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- A whole buffer held at some contents is owned, through its whole memref, at some contents; -/
theorem owns_whole_of_held (c : Dev nD) (b : Ref sig .tc) :
    (iprop(∃ f : Buf (Elt F) ((c : Thread nD τ).loc b), ((c : Thread nD τ).loc b) ↦{fullShare} f) : sProp 𝕄)
      ⊢ iprop(∃ g, owns (c : Thread nD τ) (Memref.whole b) fullShare g) := by
  iintro ⟨%f, H⟩
  iexists f
  rw [owns_whole_eq]
  iexists f; isplitr; · ipureintro; rfl
  iexact H

/-- and conversely. -/
theorem held_of_owns_whole (c : Dev nD) (b : Ref sig .tc) :
    (iprop(∃ g, owns (c : Thread nD τ) (Memref.whole b) fullShare g) : sProp 𝕄)
      ⊢ iprop(∃ f : Buf (Elt F) ((c : Thread nD τ).loc b), ((c : Thread nD τ).loc b) ↦{fullShare} f) := by
  simp only [owns_whole_eq]
  iintro ⟨%g, %f, -, H⟩
  iexists f; iexact H

/-- What the body is called with at point `t`: the invariant, what the core owes, and the five windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks; the scratch is the last of the scoped buffers the
    invariant holds at some contents each, taken out for the body's run and put back, at whatever the run leaves in
    it, to form the invariant again; the other scoped buffers, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3, after1_4]
  unfold Pipeline.ΦA
  rw [scopedRest1_eq]
  iintro ⟨⟨⟨Hs0, Hs1, Hs2, Hs3, Hs4, Hs5, Hscr⟩, Hr⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [Hscr]; · iapply (owns_whole_of_held c cc1_scratch0); iexact Hscr
  iintro ⟨H0, H1, H2, H3, H4, Hscr⟩
  isplitl [Hs0 Hs1 Hs2 Hs3 Hs4 Hs5 Hscr Hr]
  · isplitr [Hr]; swap; · iexact Hr
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iapply (held_of_owns_whole c cc1_scratch0); iexact Hscr
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Shares.lean ====
/-
  The attention pipeline's arrays among the core's unscoped buffers. Three of its windows read ONE array (the packed
  projections), so at the region's entry that array's full share is dealt in three — a half, and the two halves of
  the other half — and at its exit the three shares are joined again; the weight array and the result array are
  held whole. Every other unscoped buffer bypasses the region.
-/
import proofs.«429044_j39298950759077_3_alg».proof.Proof.Dats
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two assertions that entail one another are equal. -/
theorem eq_of_bi {P Q : sProp 𝕄} (h : P ⊣⊢ Q) : P = Q :=
  sProp.ext fun a => ⟨h.mp a, h.mpr a⟩

/-- Three conjuncts beside two more, regrouped as five in a row. -/
theorem regroup (A B C D E : sProp 𝕄) : iprop((A ∗ B ∗ C) ∗ D ∗ E) ⊣⊢ iprop(A ∗ B ∗ C ∗ D ∗ E) := by
  constructor
  · iintro ⟨⟨Ha, Hb, Hc⟩, Hd, He⟩
    isplitl [Ha]; · iexact Ha
    isplitl [Hb]; · iexact Hb
    isplitl [Hc]; · iexact Hc
    isplitl [Hd]; · iexact Hd
    iexact He
  · iintro ⟨Ha, Hb, Hc, Hd, He⟩
    isplitl [Ha Hb Hc]
    · isplitl [Ha]; · iexact Ha
      isplitl [Hb]; · iexact Hb
      iexact Hc
    · isplitl [Hd]; · iexact Hd
      iexact He

/-- The distinct buffers behind the five windows' arrays: the packed projections, the weights, the result. -/
theorem arrRefs1 : (Finset.univ.image (Pipeline.arrRef spec1) : Finset (Ref sig .tc)) = {main_v9, main_v7, main_v10} := by
  decide

/-- Those three buffers, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v9) ↦{fullShare} W main_v9) ∗ (((c : Thread nD τ).loc main_v7) ↦{fullShare} W main_v7)
          ∗ (((c : Thread nD τ).loc main_v10) ↦{fullShare} W main_v10)) := by
  unfold Pipeline.arrBufs
  rw [arrRefs1, bigSep_insert (by decide), bigSep_insert (by decide), bigSep_singleton]
  rfl

/-- A full share dealt in three: a half, and the two halves of the other half. -/
theorem deal3 {ℓ : Loc nD τ sig} (f : Buf (Elt F) ℓ) :
    (ℓ ↦{fullShare} f : sProp 𝕄)
      = iprop((ℓ ↦{fullShare.left} f) ∗ (ℓ ↦{fullShare.right.left} f) ∗ (ℓ ↦{fullShare.right.right} f)) := by
  rw [eq_of_bi (pointsTo_share (PosShare.mem_left_op_right fullShare)),
    eq_of_bi (pointsTo_share (PosShare.mem_left_op_right fullShare.right))]

/-- The pipeline's five arrays at contents `G`: the packed projections at the three shares, the weights and the
    result whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v9) ↦{fullShare.left} G 0) ∗ (((c : Thread nD τ).loc main_v9) ↦{fullShare.right.left} G 1)
          ∗ (((c : Thread nD τ).loc main_v9) ↦{fullShare.right.right} G 2) ∗ (((c : Thread nD τ).loc main_v7) ↦{fullShare} G 3)
          ∗ (((c : Thread nD τ).loc main_v10) ↦{fullShare} G 4)) := by
  have h : ((dat1 V c).arrays G : sProp 𝕄)
      = bigSep Finset.univ fun w : Fin 5 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY: the core's unscoped buffers at `V c` are the pipeline's arrays at their entry contents, each window at
    its share, and the unscoped rest. -/
theorem arrays_of_unscopedBufs1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrays1_eq, arrBufs1_eq, deal3 (V c main_v9)]
  exact (regroup (F := F) _ _ _ _ _).mp

/-- EXIT: the arrays at their final contents and the unscoped rest are the core's unscoped buffers at any contents
    `V'` that has the result array at what the pipeline leaves and agrees with `V c` elsewhere. -/
theorem unscopedBufs_of_arrays1 (c : Dev nD) (V' : (b : Ref sig .tc) → Buf (Elt F) ((c : Thread nD τ).loc b))
    (hout : V' main_v10 = (dat1 V c).arrAt 4 cfg1.N) (hrest : ∀ b : Ref sig .tc, b ≠ main_v10 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    rw [arrays1_eq, arrBufs1_eq, deal3 (V' main_v9), hout, hrest main_v9 (by decide), hrest main_v7 (by decide),
      (dat1 V c).arrAt_in 0 rfl cfg1.N, (dat1 V c).arrAt_in 1 rfl cfg1.N, (dat1 V c).arrAt_in 2 rfl cfg1.N,
      (dat1 V c).arrAt_in 3 rfl cfg1.N]
    exact (regroup (F := F) _ _ _ _ _).mpr
  · unfold Pipeline.unscopedRest
    refine bigSep_congr fun b hb => ?_
    rw [hrest b (fun e => (Finset.mem_sdiff.mp hb).2 (e ▸ (by decide)))]

end Cert.KernelIdeal.Hand

end
-- ==== Proof.Spec.lean ====
/-
  The mathematics of multi-head attention over the reals, as both programs compute it, written over plain
  natural-number coordinates: the three projections of the input, the scaled scores of one head, a row's softmax
  in the two arrangements the programs use (normalise the weights first, or normalise the weighted sum), and the
  output projection. An array "is real with f" when every entry is the extended real of f at the entry's coordinates.
-/
import Idealize.ShloMosaic.PureOps.Ideal
import Idealize.ShloMosaic.Lib.ValueIdx

noncomputable section

namespace Cert.Spec

open Finset Idealize.ShloMosaic

/-- One projection of the input by a weight stored [out, in]: (b, s, e) ↦ ∑_{d < 1024} x b s d · w e d. -/
def proj (x : ℕ → ℕ → ℕ → ℝ) (w : ℕ → ℕ → ℝ) (b s e : ℕ) : ℝ := ∑ d ∈ range 1024, x b s d * w e d

/-- The three projections packed along the last axis: columns 0–1023 the queries, 1024–2047 the keys,
    2048–3071 the values. -/
def qkv (x : ℕ → ℕ → ℕ → ℝ) (wq wk wv : ℕ → ℕ → ℝ) (b s j : ℕ) : ℝ :=
  if j < 1024 then proj x wq b s j else if j < 2048 then proj x wk b s (j - 1024) else proj x wv b s (j - 2048)

/-- The largest of a row's 2048 entries. -/
def rowMax (g : ℕ → ℝ) : ℝ := (range 2048).sup' ⟨0, by simp⟩ g

/-! ### The kernel's arrangement: the query scaled by 1/8 before the product, the weighted sum divided by the
    row's total afterwards -/

def kScore (Q K : ℕ → ℕ → ℕ → ℝ) (b h q k : ℕ) : ℝ := ∑ d ∈ range 64, (Q b q (64 * h + d) * (1 / 8)) * K b k (64 * h + d)
def kExp (Q K : ℕ → ℕ → ℕ → ℝ) (b h q k : ℕ) : ℝ := Real.exp (kScore Q K b h q k - rowMax (kScore Q K b h q))
def kHead (Q K V : ℕ → ℕ → ℕ → ℝ) (b h q d : ℕ) : ℝ :=
  (∑ k ∈ range 2048, kExp Q K b h q k * V b k (64 * h + d)) / (∑ k ∈ range 2048, kExp Q K b h q k)
/-- The heads side by side: column j belongs to head j / 64, at its coordinate j % 64. -/
def kAttn (Q K V : ℕ → ℕ → ℕ → ℝ) (b q j : ℕ) : ℝ := kHead Q K V b (j / 64) q (j % 64)
def kOut (Q K V : ℕ → ℕ → ℕ → ℝ) (wo : ℕ → ℕ → ℝ) (b s e : ℕ) : ℝ := ∑ j ∈ range 1024, kAttn Q K V b s j * wo e j

/-! ### The reference's arrangement: the product divided by 8, the weights normalised before the sum -/

def rScore (Q K : ℕ → ℕ → ℕ → ℝ) (b h q k : ℕ) : ℝ := (∑ d ∈ range 64, Q b q (64 * h + d) * K b k (64 * h + d)) / 8
def rExp (Q K : ℕ → ℕ → ℕ → ℝ) (b h q k : ℕ) : ℝ := Real.exp (rScore Q K b h q k - rowMax (rScore Q K b h q))
def rWeight (Q K : ℕ → ℕ → ℕ → ℝ) (b h q k : ℕ) : ℝ := rExp Q K b h q k / (∑ k' ∈ range 2048, rExp Q K b h q k')
def rHead (Q K V : ℕ → ℕ → ℕ → ℝ) (b h q d : ℕ) : ℝ := ∑ k ∈ range 2048, rWeight Q K b h q k * V b k (64 * h + d)
def rOut (Q K V : ℕ → ℕ → ℕ → ℝ) (wo : ℕ → ℕ → ℝ) (b s e : ℕ) : ℝ := ∑ j ∈ range 1024, rHead Q K V b (j / 64) s (j % 64) * wo e j

/-! ### Arrays whose entries are reals -/

def IsReal2 {n0 n1 : ℕ} (A : (⟨2, ![n0, n1]⟩ : Shape).Idx → EReal) (f : ℕ → ℕ → ℝ) : Prop :=
  ∀ i, A i = ((f (i 0).val (i 1).val : ℝ) : EReal)
def IsReal3 {n0 n1 n2 : ℕ} (A : (⟨3, ![n0, n1, n2]⟩ : Shape).Idx → EReal) (f : ℕ → ℕ → ℕ → ℝ) : Prop :=
  ∀ i, A i = ((f (i 0).val (i 1).val (i 2).val : ℝ) : EReal)

end Cert.Spec

end
-- ==== Proof.HostOps.lean ====
/-
  The host operations around the two pipelines, read at an index at the extended reals: the input reshaped to
  rows, the three weights transposed and laid side by side, the output weight transposed, and the packed
  projections reshaped back to batches.
-/
import proofs.«429044_j39298950759077_3_alg».proof.Proof.Gen.KernelIdeal.Launch
import proofs.«429044_j39298950759077_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.SL.Sem

variable (W : Valuation τ sig (Elt Ideal))

/-- The input's reshape to rows, as one operation of the launch contents. -/
theorem v0_eq : (StableHlo.after (hostOps0 (F := Ideal)) W main_v0 : S8192x1024.Idx → EReal)
    = shapeCast S8192x1024 (W main_arg0) shapeCasts_S4x2048x1024_S8192x1024 := by
  dsimp only [hostOps0]
  after_results
  rfl

/-- The packed weight: the three transposes side by side. -/
theorem v5_eq : (StableHlo.after (hostOps0 (F := Ideal)) W main_v5 : S1024x3072.Idx → EReal)
    = truncf (F := Ideal) .bf16 (concatenate S1024x3072 1
        [⟨S1024x1024, transpose S1024x1024 [1, 0] (W main_arg1 : FVec Ideal S1024x1024 .f32) transposes_S1024x1024_S1024x1024_1_0⟩,
         ⟨S1024x1024, transpose S1024x1024 [1, 0] (W main_arg2 : FVec Ideal S1024x1024 .f32) transposes_S1024x1024_S1024x1024_1_0⟩,
         ⟨S1024x1024, transpose S1024x1024 [1, 0] (W main_arg3 : FVec Ideal S1024x1024 .f32) transposes_S1024x1024_S1024x1024_1_0⟩]
        concatenates_S1024x1024_S1024x1024_S1024x1024_S1024x3072_d1 : FVec Ideal S1024x3072 .f32) bitsLt_bf16_f32 := by
  dsimp only [hostOps0]
  after_results
  rfl

/-- The output weight: its transpose. -/
theorem v7_eq : (StableHlo.after (hostOps0 (F := Ideal)) W main_v7 : S1024x1024.Idx → EReal)
    = truncf (F := Ideal) .bf16 (transpose S1024x1024 [1, 0] (W main_arg4 : FVec Ideal S1024x1024 .f32) transposes_S1024x1024_S1024x1024_1_0) bitsLt_bf16_f32 := by
  dsimp only [hostOps0]
  after_results

/-- The packed projections' reshape back to batches, as one operation of the contents before it. -/
theorem v9_eq : (StableHlo.after (hostOps1 (F := Ideal)) W main_v9 : S4x2048x3072.Idx → EReal)
    = shapeCast S4x2048x3072 (W main_v8) shapeCasts_S8192x3072_S4x2048x3072 := by
  dsimp only [hostOps1]
  after_results
  rfl

/-- Three square pieces laid side by side, read at a column of the first: the first piece at that column. -/
theorem concat3_left {α : Type} (A B C : S1024x1024.Idx → α) (i : S1024x3072.Idx) (i' : S1024x1024.Idx)
    (h0 : i' 0 = i 0) (h1 : (i' 1).val = (i 1).val) :
    concatenate S1024x3072 1 [⟨S1024x1024, A⟩, ⟨S1024x1024, B⟩, ⟨S1024x1024, C⟩]
      concatenates_S1024x1024_S1024x1024_S1024x1024_S1024x3072_d1 i = A i' :=
  concatenate_apply_piece (t := S1024x3072) 1 [⟨S1024x1024, A⟩, ⟨S1024x1024, B⟩, ⟨S1024x1024, C⟩]
    concatenates_S1024x1024_S1024x1024_S1024x1024_S1024x3072_d1 i
    0 (by show (0 : ℕ) < 3; omega) S1024x1024 A rfl rfl 0 rfl i'
    (fun b hb => match b, hb with | ⟨0, _⟩, _ => congrArg Fin.val h0 | ⟨1, _⟩, hb => absurd rfl hb)
    (by show 0 + (i' 1).val = (i 1).val; omega)

/-- … at a column of the second: the second piece at that column less 1024. -/
theorem concat3_mid {α : Type} (A B C : S1024x1024.Idx → α) (i : S1024x3072.Idx) (i' : S1024x1024.Idx)
    (h0 : i' 0 = i 0) (h1 : 1024 + (i' 1).val = (i 1).val) :
    concatenate S1024x3072 1 [⟨S1024x1024, A⟩, ⟨S1024x1024, B⟩, ⟨S1024x1024, C⟩]
      concatenates_S1024x1024_S1024x1024_S1024x1024_S1024x3072_d1 i = B i' :=
  concatenate_apply_piece (t := S1024x3072) 1 [⟨S1024x1024, A⟩, ⟨S1024x1024, B⟩, ⟨S1024x1024, C⟩]
    concatenates_S1024x1024_S1024x1024_S1024x1024_S1024x3072_d1 i
    1 (by show (1 : ℕ) < 3; omega) S1024x1024 B rfl rfl 1024 rfl i'
    (fun b hb => match b, hb with | ⟨0, _⟩, _ => congrArg Fin.val h0 | ⟨1, _⟩, hb => absurd rfl hb)
    h1

/-- … at a column of the third: the third piece at that column less 2048. -/
theorem concat3_right {α : Type} (A B C : S1024x1024.Idx → α) (i : S1024x3072.Idx) (i' : S1024x1024.Idx)
    (h0 : i' 0 = i 0) (h1 : 2048 + (i' 1).val = (i 1).val) :
    concatenate S1024x3072 1 [⟨S1024x1024, A⟩, ⟨S1024x1024, B⟩, ⟨S1024x1024, C⟩]
      concatenates_S1024x1024_S1024x1024_S1024x1024_S1024x3072_d1 i = C i' :=
  concatenate_apply_piece (t := S1024x3072) 1 [⟨S1024x1024, A⟩, ⟨S1024x1024, B⟩, ⟨S1024x1024, C⟩]
    concatenates_S1024x1024_S1024x1024_S1024x1024_S1024x3072_d1 i
    2 (by show (2 : ℕ) < 3; omega) S1024x1024 C rfl rfl 2048 rfl i'
    (fun b hb => match b, hb with | ⟨0, _⟩, _ => congrArg Fin.val h0 | ⟨1, _⟩, hb => absurd rfl hb)
    h1

/-- A square array of reals transposed, read at an index: the entry at the swapped coordinates. -/
theorem transpose_real (A : S1024x1024.Idx → EReal) (f : ℕ → ℕ → ℝ) (hA : IsReal2 A f) (i : S1024x1024.Idx) :
    transpose S1024x1024 [1, 0] A transposes_S1024x1024_S1024x1024_1_0 i = ((f (i 1).val (i 0).val : ℝ) : EReal) := by
  let k : S1024x1024.Idx := fun a => match a with
    | ⟨0, _⟩ => i 1
    | ⟨1, _⟩ => i 0
  rw [transpose_apply (s := S1024x1024) (t := S1024x1024) [1, 0] A transposes_S1024x1024_S1024x1024_1_0 i k
    (fun b => match b with | ⟨0, _⟩ => rfl | ⟨1, _⟩ => rfl)]
  exact hA k

theorem pre_v0_real (x : ℕ → ℕ → ℕ → ℝ) (hx : IsReal3 (W main_arg0) x) :
    IsReal2 (StableHlo.after (hostOps0 (F := Ideal)) W main_v0) (fun r d => x (r / 2048) (r % 2048) d) := by
  intro i
  have h0 : (i 0).val < 8192 := (i 0).isLt
  have h1 : (i 1).val < 1024 := (i 1).isLt
  rw [v0_eq W]
  let k : S4x2048x1024.Idx := fun a => match a with
    | ⟨0, _⟩ => ⟨(i 0).val / 2048, by show _ < 4; omega⟩
    | ⟨1, _⟩ => ⟨(i 0).val % 2048, by show _ < 2048; omega⟩
    | ⟨2, _⟩ => ⟨(i 1).val, by show _ < 1024; exact h1⟩
  have hk : (S4x2048x1024.rowMajor k).val = (S8192x1024.rowMajor i).val := by
    rw [Shape.rowMajor_val_three, Shape.rowMajor_val_two]
    show ((i 0).val / 2048 * 2048 + (i 0).val % 2048) * 1024 + (i 1).val = (i 0).val * 1024 + (i 1).val
    omega
  rw [shapeCast_apply (s := S4x2048x1024) (t := S8192x1024) (W main_arg0) shapeCasts_S4x2048x1024_S8192x1024 i k hk]
  exact hx k

theorem pre_v5_real (wq wk wv : ℕ → ℕ → ℝ) (hq : IsReal2 (W main_arg1) wq) (hk : IsReal2 (W main_arg2) wk) (hv : IsReal2 (W main_arg3) wv) :
    IsReal2 (StableHlo.after (hostOps0 (F := Ideal)) W main_v5)
      (fun d j => if j < 1024 then wq j d else if j < 2048 then wk (j - 1024) d else wv (j - 2048) d) := by
  intro i
  have h0 : (i 0).val < 1024 := (i 0).isLt
  have h1 : (i 1).val < 3072 := (i 1).isLt
  rw [v5_eq W, ValueIdx.truncf_apply]
  by_cases c1 : (i 1).val < 1024
  · let i' : S1024x1024.Idx := fun a => match a with
      | ⟨0, _⟩ => i 0
      | ⟨1, _⟩ => ⟨(i 1).val, by show _ < 1024; exact c1⟩
    rw [concat3_left _ _ _ i i' rfl rfl, transpose_real _ wq hq i']
    show ((wq (i 1).val (i 0).val : ℝ) : EReal) = _
    simp only [if_pos c1]
  · by_cases c2 : (i 1).val < 2048
    · let i' : S1024x1024.Idx := fun a => match a with
        | ⟨0, _⟩ => i 0
        | ⟨1, _⟩ => ⟨(i 1).val - 1024, by show _ < 1024; omega⟩
      rw [concat3_mid _ _ _ i i' rfl (by show 1024 + ((i 1).val - 1024) = (i 1).val; omega), transpose_real _ wk hk i']
      show ((wk ((i 1).val - 1024) (i 0).val : ℝ) : EReal) = _
      simp only [if_neg c1, if_pos c2]
    · let i' : S1024x1024.Idx := fun a => match a with
        | ⟨0, _⟩ => i 0
        | ⟨1, _⟩ => ⟨(i 1).val - 2048, by show _ < 1024; omega⟩
      rw [concat3_right _ _ _ i i' rfl (by show 2048 + ((i 1).val - 2048) = (i 1).val; omega), transpose_real _ wv hv i']
      show ((wv ((i 1).val - 2048) (i 0).val : ℝ) : EReal) = _
      simp only [if_neg c1, if_neg c2]

theorem pre_v7_real (wo : ℕ → ℕ → ℝ) (ho : IsReal2 (W main_arg4) wo) :
    IsReal2 (StableHlo.after (hostOps0 (F := Ideal)) W main_v7) (fun d e => wo e d) := by
  intro i
  rw [v7_eq W, ValueIdx.truncf_apply]
  exact transpose_real _ wo ho i

theorem mid_v9_real (g : ℕ → ℕ → ℝ) (h8 : IsReal2 (W main_v8) g) :
    IsReal3 (StableHlo.after (hostOps1 (F := Ideal)) W main_v9) (fun b s j => g (b * 2048 + s) j) := by
  intro i
  have h0 : (i 0).val < 4 := (i 0).isLt
  have h1 : (i 1).val < 2048 := (i 1).isLt
  have h2 : (i 2).val < 3072 := (i 2).isLt
  rw [v9_eq W]
  let k : S8192x3072.Idx := fun a => match a with
    | ⟨0, _⟩ => ⟨(i 0).val * 2048 + (i 1).val, by show _ < 8192; omega⟩
    | ⟨1, _⟩ => ⟨(i 2).val, by show _ < 3072; exact h2⟩
  have hk : (S8192x3072.rowMajor k).val = (S4x2048x3072.rowMajor i).val := by
    rw [Shape.rowMajor_val_three, Shape.rowMajor_val_two]
    rfl
  rw [shapeCast_apply (s := S8192x3072) (t := S4x2048x3072) (W main_v8) shapeCasts_S8192x3072_S4x2048x3072 i k hk]
  exact h8 k

end Cert.KernelIdeal.Hand

end
-- ==== Proof.LibReal.lean ====
/-
  Extended reals that are reals: sums, a row's maximum, the exponential, a quotient by a nonzero real, and the
  few literal words the two programs use, read as extended reals.
-/
import proofs.«429044_j39298950759077_3_alg».proof.Proof.Spec

noncomputable section

namespace Cert.LibReal

open Cert.Spec Finset Idealize.ShloMosaic

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` of coerced reals is the coercion of the sum over `range n`. -/
theorem sum_fin_coe (n : ℕ) (f : ℕ → ℝ) : (∑ k : Fin n, ((f k.val : ℝ) : EReal)) = ((∑ k ∈ range n, f k : ℝ) : EReal) := by
  rw [coe_sum, Fin.sum_univ_eq_sum_range (fun k => ((f k : ℝ) : EReal)) n]

/-- The fold of `max` from −∞ over a row of 2048 coerced reals is the coercion of the row's maximum. -/
theorem fold_max_coe (g : ℕ → ℝ) :
    (Finset.univ : Finset (Fin 2048)).fold max (⊥ : EReal) (fun k => ((g k.val : ℝ) : EReal)) = ((rowMax g : ℝ) : EReal) := by
  apply le_antisymm
  · rw [Finset.fold_max_le]
    refine ⟨bot_le, fun x _ => ?_⟩
    exact EReal.coe_le_coe_iff.mpr (Finset.le_sup' g (Finset.mem_range.mpr x.isLt))
  · obtain ⟨k, hk, hkeq⟩ := Finset.exists_mem_eq_sup' (⟨0, by simp⟩ : (range 2048).Nonempty) g
    rw [Finset.le_fold_max]
    refine Or.inr ⟨⟨k, Finset.mem_range.mp hk⟩, Finset.mem_univ _, ?_⟩
    show ((rowMax g : ℝ) : EReal) ≤ ((g k : ℝ) : EReal)
    exact EReal.coe_le_coe_iff.mpr (le_of_eq hkeq)

theorem exp_coe (r : ℝ) : Ideal.exp (r : EReal) = ((Real.exp r : ℝ) : EReal) := rfl

theorem div_coe_coe (a b : ℝ) (hb : b ≠ 0) : Ideal.div (a : EReal) (b : EReal) = ((a / b : ℝ) : EReal) := by
  rw [Ideal.div_coe hb, ← EReal.coe_mul, mul_one_div]

theorem ofBits_neg_inf : Ideal.ofBits .f32 0xFF800000#32 = (⊥ : EReal) := by
  simp [Ideal.ofBits, Ideal.ieee]

theorem ofBits_eighth : Ideal.ofBits .bf16 0x3E00#16 = ((1 / 8 : ℝ) : EReal) := by
  simp [Ideal.ofBits, Ideal.ieee]
  rw [← EReal.coe_mul, EReal.coe_eq_coe_iff]
  norm_num

theorem ofBits_64 : Ideal.ofBits .f32 0x42800000#32 = ((64 : ℝ) : EReal) := by
  simp [Ideal.ofBits, Ideal.ieee]
  rw [← EReal.coe_mul, EReal.coe_eq_coe_iff]
  norm_num

theorem sqrt_64 : Ideal.sqrt ((64 : ℝ) : EReal) = ((8 : ℝ) : EReal) := by
  rw [Ideal.sqrt_coe, if_neg (by norm_num), show (64 : ℝ) = 8 * 8 by norm_num, Real.sqrt_mul_self (by norm_num)]

/-- A row's total of exponentials is positive. -/
theorem sum_exp_pos (g : ℕ → ℝ) : 0 < ∑ k ∈ range 2048, Real.exp (g k) :=
  Finset.sum_pos (fun _ _ => Real.exp_pos _) ⟨0, by simp⟩

end Cert.LibReal

end
-- ==== Proof.Value0.lean ====
/-
  The projection body's output block read at an index, at the extended reals: entry (r, j) is the sum over d of
  the first block's (r, d) times the second block's (d, j), when the blocks' entries are reals.
-/
import proofs.«429044_j39298950759077_3_alg».proof.Proof.Outs
import proofs.«429044_j39298950759077_3_alg».proof.Proof.Spec
import proofs.«429044_j39298950759077_3_alg».proof.Proof.LibReal
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Cert.Spec Cert.LibReal
open Idealize.ShloMosaic Idealize.ShloMosaic.TcCoe Idealize.SL.Sem Finset

/-! ### The product's operand indices, axis by axis

The projection's product contracts the left operand's axis 1 against the right operand's axis 0: at output index
(r, j) and contraction position k the left operand is read at (r, k) and the right operand at (k, j). -/

theorem lhs_k0_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_k0_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_k0_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_k0_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The left operand's index at output index i and contraction coordinate k: (i 0, k). -/
abbrev lidx_k0 (i : S1024x1024.Idx) (k : Fin 1024) : S1024x1024.Idx := fun a => match a with
  | ⟨0, _⟩ => ⟨(i 0).val, (i 0).isLt⟩
  | ⟨1, _⟩ => ⟨k.val, k.isLt⟩
/-- The right operand's index at output index i and contraction coordinate k: (k, i 1). -/
abbrev ridx_k0 (i : S1024x1024.Idx) (k : Fin 1024) : S1024x1024.Idx := fun a => match a with
  | ⟨0, _⟩ => ⟨k.val, k.isLt⟩
  | ⟨1, _⟩ => ⟨(i 1).val, (i 1).isLt⟩

/-- The projection body's output block at an index, at the extended reals: the casts and truncations are the
    identity there, and the product into the zero accumulator is the sum over the contracted coordinate. -/
theorem out0_2_apply (x0 : Vec Ideal S1024x1024 .f32) (x1 : Vec Ideal S1024x1024 .bf16) (i : S1024x1024.Idx) :
    out0_2 (F := Ideal) x0 x1 i = ∑ k : Fin 1024, x0 (lidx_k0 i k) * x1 (ridx_k0 i k) := by
  unfold out0_2 k0_pay1
  simp only [shapeCast_self]
  rw [ValueIdx.truncf_apply]
  simp only [matmul]
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx i ((ValueIdx.contrEquiv1 dot_S1024x1024_S1024x1024_S1024x1024_1_0_0_1_n_n 1024 rfl rfl).symm k) = lidx_k0 i k := funext fun a => Fin.ext (by
    match a with
    | ⟨0, _⟩ => exact lhs_k0_0 _ _
    | ⟨1, _⟩ => exact (lhs_k0_1 _ _).trans hk)
  have er : dot_S1024x1024_S1024x1024_S1024x1024_1_0_0_1_n_n.rhsIdx i ((ValueIdx.contrEquiv1 dot_S1024x1024_S1024x1024_S1024x1024_1_0_0_1_n_n 1024 rfl rfl).symm k) = ridx_k0 i k := funext fun a => Fin.ext (by
    match a with
    | ⟨0, _⟩ => exact (rhs_k0_0 _ _).trans hk
    | ⟨1, _⟩ => exact rhs_k0_1 _ _)
  rw [el, er, ValueIdx.truncf_apply]

theorem out0_2_real (x0 : Vec Ideal S1024x1024 .f32) (x1 : Vec Ideal S1024x1024 .bf16) (f g : ℕ → ℕ → ℝ)
    (h0 : IsReal2 x0 f) (h1 : IsReal2 x1 g) :
    IsReal2 (out0_2 (F := Ideal) x0 x1) (fun r j => ∑ d ∈ range 1024, f r d * g d j) := by
  intro i
  rw [out0_2_apply]
  have hs : ∀ k : Fin 1024, x0 (lidx_k0 i k) * x1 (ridx_k0 i k) = (((f (i 0).val k.val * g k.val (i 1).val : ℝ)) : EReal) := by
    intro k
    rw [h0 (lidx_k0 i k), h1 (ridx_k0 i k), ← EReal.coe_mul]
  rw [Finset.sum_congr rfl fun k _ => hs k]
  exact sum_fin_coe 1024 fun d => f (i 0).val d * g d (i 1).val

end Cert.KernelIdeal.Hand

end
-- ==== Proof.Arrays0.lean ====
/-
  From blocks to arrays, at the extended reals: the array each pipeline leaves in its output window, read at an
  index, when the arrays it reads hold reals. The projection pipeline's grid point (i, j) writes block (i, j) of
  the packed projections; the attention pipeline's point (b, i) writes rows 512·i … of batch b.
-/
import proofs.«429044_j39298950759077_3_alg».proof.Proof.Dats
import proofs.«429044_j39298950759077_3_alg».proof.Proof.Value0
import Idealize.ShloMosaic.Lib.Pipeline.Value

set_option maxRecDepth 16384

noncomputable section

namespace Cert.KernelIdeal.Hand

open Cert.KernelIdeal Cert.KernelIdeal.Gen Cert.Spec Cert.LibReal
open Idealize.ShloMosaic Idealize.ShloMosaic.TcCoe Idealize.SL.Sem Finset
open Idealize.ShloMosaic.Pipeline (Dat)

variable (V : (c : Dev nD) → (b : Ref sig .tc) → Buf (Elt Ideal) ((c : Thread nD τ).loc b))

/-! ### The block indices of the three windows at a grid point

Grid point t of the 8 × 3 grid is (t / 3, t % 3): the left operand's block is row block t / 3, the right operand's
column block t % 3, and the output's block (t / 3, t % 3). -/

theorem block_indices0 : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3 :=
  (by decide +kernel : ∀ t : Fin grid0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3)

/-- The left operand's block at point t holds the reals of rows 1024 · (t / 3) … of the array. -/
theorem iblk0_0_real (c : Dev nD) (f : ℕ → ℕ → ℝ) (h0 : IsReal2 (V c main_v0) f) (t : Fin cfg0.N) :
    IsReal2 (n0 := 1024) (n1 := 1024) (iblk0 (F := Ideal) V c 0 t) (fun r d => f (1024 * (t.val / 3) + r) d) := by
  intro y
  obtain ⟨e00, e01, e10, e11, e20, e21⟩ := block_indices0 t
  have hr : (iblk0 (F := Ideal) V c 0 t) y = V c main_v0 (((cfg0.win 0).blk t).view.emb y) := by
    unfold iblk0
    rw [View.read_apply]
    rfl
  have a0 : ((((cfg0.win 0).blk t).view.emb y) 0).val = 1024 * (t.val / 3) + (y 0).val := by
    show win0_0.index t (0 : Fin 2) * 1024 + 1 * (y 0).val = _
    rw [e00]; omega
  have a1 : ((((cfg0.win 0).blk t).view.emb y) 1).val = (y 1).val := by
    show win0_0.index t (1 : Fin 2) * 1024 + 1 * (y 1).val = _
    rw [e01]; omega
  rw [hr, h0, a0, a1]

/-- The right operand's block at point t holds the reals of columns 1024 · (t % 3) … of the array. -/
theorem iblk0_1_real (c : Dev nD) (g : ℕ → ℕ → ℝ) (h1 : IsReal2 (V c main_v5) g) (t : Fin cfg0.N) :
    IsReal2 (n0 := 1024) (n1 := 1024) (iblk0 (F := Ideal) V c 1 t) (fun d j => g d (1024 * (t.val % 3) + j)) := by
  intro y
  obtain ⟨e00, e01, e10, e11, e20, e21⟩ := block_indices0 t
  have hr : (iblk0 (F := Ideal) V c 1 t) y = V c main_v5 (((cfg0.win 1).blk t).view.emb y) := by
    unfold iblk0
    rw [View.read_apply]
    rfl
  have a0 : ((((cfg0.win 1).blk t).view.emb y) 0).val = (y 0).val := by
    show win0_1.index t (0 : Fin 2) * 1024 + 1 * (y 0).val = _
    rw [e10]; omega
  have a1 : ((((cfg0.win 1).blk t).view.emb y) 1).val = 1024 * (t.val % 3) + (y 1).val := by
    show win0_1.index t (1 : Fin 2) * 1024 + 1 * (y 1).val = _
    rw [e11]; omega
  rw [hr, h1, a0, a1]

/-! ### The array the pipeline leaves: the product of the two arrays, entry by entry -/

/-- Entry (r, j) of the product: ∑_{d < 1024} f r d · g d j, as an extended real. -/
abbrev prodArr (f g : ℕ → ℕ → ℝ) : S8192x3072.Idx → EReal :=
  fun i => ((∑ d ∈ range 1024, f (i 0).val d * g d (i 1).val : ℝ) : EReal)

/-- What point t writes back is block (t / 3, t % 3) of the product. -/
theorem flushed0_eq (c : Dev nD) (f g : ℕ → ℕ → ℝ) (h0 : IsReal2 (V c main_v0) f) (h1 : IsReal2 (V c main_v5) g)
    (t : Fin cfg0.N) :
    (dat0 (F := Ideal) V c).flushed 2 t = ((cfg0.win 2).blk t).view.read (Elt Ideal) (prodArr f g) := by
  show (cfg0.win 2).cut (cfg0.grid.coords t) ((dat0 (F := Ideal) V c).after 2 t) = _
  rw [after0_2]
  obtain ⟨e00, e01, e10, e11, e20, e21⟩ := block_indices0 t
  funext y
  rw [View.read_apply]
  have a0 : ((((cfg0.win 2).blk t).view.emb y) 0).val = 1024 * (t.val / 3) + (y 0).val := by
    show win0_2.index t (0 : Fin 2) * 1024 + 1 * (y 0).val = _
    rw [e20]; omega
  have a1 : ((((cfg0.win 2).blk t).view.emb y) 1).val = 1024 * (t.val % 3) + (y 1).val := by
    show win0_2.index t (1 : Fin 2) * 1024 + 1 * (y 1).val = _
    rw [e21]; omega
  show out0_2 (F := Ideal) (iblk0 (F := Ideal) V c 0 t) (iblk0 (F := Ideal) V c 1 t) y
    = ((∑ d ∈ range 1024, f ((((cfg0.win 2).blk t).view.emb y) 0).val d * g d ((((cfg0.win 2).blk t).view.emb y) 1).val : ℝ) : EReal)
  rw [a0, a1]
  exact out0_2_real _ _ _ _ (iblk0_0_real V c f h0 t) (iblk0_1_real V c g h1 t) y

/-- An index of the array is in point t's block iff each coordinate is in the block's range on its axis. -/
theorem mem_blk0 (t : Fin cfg0.N) (i : S8192x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v8).slice (win0_2.rect t)).set ↔ _
  rw [View.set_slice_whole, Rect.mem_set_unit]
  exact Iff.rfl

/-- Every index (r, j) of the array is in the block of point 3 · (r / 1024) + j / 1024. -/
theorem cover0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 24 := N_0
  have ht : 3 * ((i 0).val / 1024) + (i 1).val / 1024 < cfg0.N := by rw [hN]; omega
  obtain ⟨e00, e01, e10, e11, e20, e21⟩ := block_indices0 ⟨3 * ((i 0).val / 1024) + (i 1).val / 1024, ht⟩
  refine ⟨⟨3 * ((i 0).val / 1024) + (i 1).val / 1024, ht⟩, flush0_2 _, ?_⟩
  rw [mem_blk0]
  intro a
  match a with
  | ⟨0, _⟩ =>
    show win0_2.index ⟨3 * ((i 0).val / 1024) + (i 1).val / 1024, ht⟩ (0 : Fin 2) * 1024 ≤ (i 0).val ∧ (i 0).val < win0_2.index ⟨3 * ((i 0).val / 1024) + (i 1).val / 1024, ht⟩ (0 : Fin 2) * 1024 + 1024
    rw [e20]
    show (3 * ((i 0).val / 1024) + (i 1).val / 1024) / 3 * 1024 ≤ (i 0).val ∧ (i 0).val < (3 * ((i 0).val / 1024) + (i 1).val / 1024) / 3 * 1024 + 1024
    omega
  | ⟨1, _⟩ =>
    show win0_2.index ⟨3 * ((i 0).val / 1024) + (i 1).val / 1024, ht⟩ (1 : Fin 2) * 1024 ≤ (i 1).val ∧ (i 1).val < win0_2.index ⟨3 * ((i 0).val / 1024) + (i 1).val / 1024, ht⟩ (1 : Fin 2) * 1024 + 1024
    rw [e21]
    show (3 * ((i 0).val / 1024) + (i 1).val / 1024) % 3 * 1024 ≤ (i 1).val ∧ (i 1).val < (3 * ((i 0).val / 1024) + (i 1).val / 1024) % 3 * 1024 + 1024
    omega

/-- The array after the run is the product. -/
theorem arr0_eq (c : Dev nD) (f g : ℕ → ℕ → ℝ) (h0 : IsReal2 (V c main_v0) f) (h1 : IsReal2 (V c main_v5) g) :
    (dat0 (F := Ideal) V c).arrAt 2 cfg0.N = prodArr f g :=
  (dat0 (F := Ideal) V c).arrAt_eq_of_cover 2 (prodArr f g) (fun t _ => flushed0_eq V c f g h0 h1 t) cover0

theorem arr0_real (c : Dev nD) (f g : ℕ → ℕ → ℝ) (h0 : IsReal2 (V c main_v0) f) (h1 : IsReal2 (V c main_v5) g) :
    IsReal2 ((dat0 (F := Ideal) V c).arrAt 2 cfg0.N) (fun r j => ∑ d ∈ range 1024, f r d * g d j) := by
  intro i
  rw [arr0_eq V c f g h0 h1]

end Cert.KernelIdeal.Hand

end
-- ==== Proof.Value1.lean ====
/-
  The attention body's output block read at an index, at the extended reals: when the query, key, value and
  weight blocks hold reals, entry (0, q, e) is the kernel's arrangement of attention (`Cert.Spec.kOut`) of those
  reals, the weight block read transposed.
-/
import proofs.«429044_j39298950759077_3_alg».proof.Proof.Outs
import proofs.«429044_j39298950759077_3_alg».proof.Proof.Spec
import proofs.«429044_j39298950759077_3_alg».proof.Proof.LibReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Spec Cert.LibReal
open Idealize.ShloMosaic Idealize.ShloMosaic.TcCoe Idealize.SL.Sem Finset
open Idealize.ShloMosaic.ValueIdx

/-! ## The three products read at an index -/

/-- The left operand's index on its free axis is the result's row. -/
theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- The left operand's index on its contracted axis is the contraction's coordinate. -/
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- The right operand's index on its free axis is the result's column. -/
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- The right operand's index on its contracted axis is the contraction's coordinate. -/
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
/-- The product into zero read at (p, c): the sum over the contracted coordinate of the operands' products. -/
theorem matmul_qk_apply (a : FVec Ideal S512x64 .bf16) (b : FVec Ideal S2048x64 .bf16) (p : Fin 512) (c : Fin 2048) :
    matmul (F := Ideal) dot_S512x64_S2048x64_S512x2048_1_1_0_0_n_n none a b (constant (F := Ideal) S512x2048 .f32 0x00000000#32) (ix2 p c)
      = ∑ d : Fin 64, a (ix2 p d) * b (ix2 c d) := by
  refine (Ideal.matmul_constant_zero_apply dot_S512x64_S2048x64_S512x2048_1_1_0_0_n_n none a b (ix2 p c)).trans ?_
  rw [← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 p c) ((ValueIdx.contrEquiv1 dot_S512x64_S2048x64_S512x2048_1_1_0_0_n_n 64 rfl rfl).symm d) = ix2 p d := funext fun ax => Fin.ext (by
    match ax with
    | ⟨0, _⟩ => exact lhs_qk_0 _ _
    | ⟨1, _⟩ => exact (lhs_qk_1 _ _).trans hk)
  have er : dot_S512x64_S2048x64_S512x2048_1_1_0_0_n_n.rhsIdx (ix2 p c) ((ValueIdx.contrEquiv1 dot_S512x64_S2048x64_S512x2048_1_1_0_0_n_n 64 rfl rfl).symm d) = ix2 c d := funext fun ax => Fin.ext (by
    match ax with
    | ⟨0, _⟩ => exact rhs_qk_0 _ _
    | ⟨1, _⟩ => exact (rhs_qk_1 _ _).trans hk)
  rw [el, er]

/-- The left operand's index on its free axis is the result's row. -/
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- The left operand's index on its contracted axis is the contraction's coordinate. -/
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The right operand's index on its free axis is the result's column. -/
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- The right operand's index on its contracted axis is the contraction's coordinate. -/
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- The product into zero read at (p, c): the sum over the contracted coordinate of the operands' products. -/
theorem matmul_pv_apply (a : FVec Ideal S512x2048 .bf16) (b : FVec Ideal S2048x64 .bf16) (p : Fin 512) (c : Fin 64) :
    matmul (F := Ideal) dot_S512x2048_S2048x64_S512x64_1_0_0_1_n_n none a b (constant (F := Ideal) S512x64 .f32 0x00000000#32) (ix2 p c)
      = ∑ d : Fin 2048, a (ix2 p d) * b (ix2 d c) := by
  refine (Ideal.matmul_constant_zero_apply dot_S512x2048_S2048x64_S512x64_1_0_0_1_n_n none a b (ix2 p c)).trans ?_
  rw [← Equiv.sum_comp (ValueIdx.contrEquiv1 dot_S512x2048_S2048x64_S512x64_1_0_0_1_n_n 2048 rfl rfl).symm]
  refine Finset.sum_congr rfl fun d _ => ?_
  have hk := ValueIdx.contrEquiv1_symm_val dot_S512x2048_S2048x64_S512x64_1_0_0_1_n_n 2048 rfl rfl d
  have el : dot_S512x2048_S2048x64_S512x64_1_0_0_1_n_n.lhsIdx (ix2 p c) ((ValueIdx.contrEquiv1 dot_S512x2048_S2048x64_S512x64_1_0_0_1_n_n 2048 rfl rfl).symm d) = ix2 p d := funext fun ax => Fin.ext (by
    match ax with
    | ⟨0, _⟩ => exact lhs_pv_0 _ _
    | ⟨1, _⟩ => exact (lhs_pv_1 _ _).trans hk)
  have er : dot_S512x2048_S2048x64_S512x64_1_0_0_1_n_n.rhsIdx (ix2 p c) ((ValueIdx.contrEquiv1 dot_S512x2048_S2048x64_S512x64_1_0_0_1_n_n 2048 rfl rfl).symm d) = ix2 d c := funext fun ax => Fin.ext (by
    match ax with
    | ⟨0, _⟩ => exact (rhs_pv_0 _ _).trans hk
    | ⟨1, _⟩ => exact rhs_pv_1 _ _)
  rw [el, er]

/-- The left operand's index on its free axis is the result's row. -/
theorem lhs_ow_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's index on its contracted axis is the contraction's coordinate. -/
theorem lhs_ow_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index on its free axis is the result's column. -/
theorem rhs_ow_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The right operand's index on its contracted axis is the contraction's coordinate. -/
theorem rhs_ow_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The product into zero read at (p, c): the sum over the contracted coordinate of the operands' products. -/
theorem matmul_ow_apply (a : FVec Ideal S512x1024 .bf16) (b : FVec Ideal S1024x1024 .bf16) (p : Fin 512) (c : Fin 1024) :
    matmul (F := Ideal) dot_S512x1024_S1024x1024_S512x1024_1_0_0_1_n_n none a b (constant (F := Ideal) S512x1024 .f32 0x00000000#32) (ix2 p c)
      = ∑ d : Fin 1024, a (ix2 p d) * b (ix2 d c) := by
  refine (Ideal.matmul_constant_zero_apply dot_S512x1024_S1024x1024_S512x1024_1_0_0_1_n_n none a b (ix2 p c)).trans ?_
  rw [← Equiv.sum_comp (ValueIdx.contrEquiv1 dot_S512x1024_S1024x1024_S512x1024_1_0_0_1_n_n 1024 rfl rfl).symm]
  refine Finset.sum_congr rfl fun d _ => ?_
  have hk := ValueIdx.contrEquiv1_symm_val dot_S512x1024_S1024x1024_S512x1024_1_0_0_1_n_n 1024 rfl rfl d
  have el : dot_S512x1024_S1024x1024_S512x1024_1_0_0_1_n_n.lhsIdx (ix2 p c) ((ValueIdx.contrEquiv1 dot_S512x1024_S1024x1024_S512x1024_1_0_0_1_n_n 1024 rfl rfl).symm d) = ix2 p d := funext fun ax => Fin.ext (by
    match ax with
    | ⟨0, _⟩ => exact lhs_ow_0 _ _
    | ⟨1, _⟩ => exact (lhs_ow_1 _ _).trans hk)
  have er : dot_S512x1024_S1024x1024_S512x1024_1_0_0_1_n_n.rhsIdx (ix2 p c) ((ValueIdx.contrEquiv1 dot_S512x1024_S1024x1024_S512x1024_1_0_0_1_n_n 1024 rfl rfl).symm d) = ix2 d c := funext fun ax => Fin.ext (by
    match ax with
    | ⟨0, _⟩ => exact (rhs_ow_0 _ _).trans hk
    | ⟨1, _⟩ => exact rhs_ow_1 _ _)
  rw [el, er]

/-! ## A row's value kept on a unit axis and spread along the row -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row value spread along its row reads the row's value. -/
theorem spread_apply {α : Type} {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- Sixty-four columns from column `o` of a block of reals are the reals at the shifted column. -/
theorem half_real {n0 : ℕ} (o : ℕ) (X : (⟨2, ![n0, 128]⟩ : Shape).Idx → EReal)
    (hc : (⟨2, ![n0, 128]⟩ : Shape).ShapeCasts ⟨2, ![n0, 128]⟩) (hsl : (⟨2, ![n0, 128]⟩ : Shape).Slices ![0, o] ⟨2, ![n0, 64]⟩)
    (f g : ℕ → ℕ → ℝ) (hX : IsReal2 X f) (hfg : ∀ a d, d < 64 → f a (o + d) = g a d) :
    IsReal2 (extractStridedSlice ⟨2, ![n0, 64]⟩ ![0, o] (shapeCast ⟨2, ![n0, 128]⟩ X hc) hsl) g := by
  intro i
  obtain ⟨a, d, rfl⟩ : ∃ (a : Fin n0) (d : Fin 64), i = ix2 a d := ⟨i 0, i 1, eq_ix2 i⟩
  rw [slice2_axis1_eq, shapeCast_self]
  refine (hX _).trans ?_
  show ((f a.val (o + d.val) : ℝ) : EReal) = ((g a.val d.val : ℝ) : EReal)
  rw [hfg a.val d.val d.isLt]

/-! ## One head: scores, row maxima, exponentials, their totals, the weighted sum of values, the quotient -/

/-- The scaled scores of one head from its 64 query and key columns. -/
def scores (Q : FVec Ideal S512x64 .bf16) (K : FVec Ideal S2048x64 .bf16) : FVec Ideal S512x2048 .f32 :=
  matmul (F := Ideal) dot_S512x64_S2048x64_S512x2048_1_1_0_0_n_n none (mulf Q (broadcast S512x64 (Scalar.ofBits (F := Ideal) .bf16 0x3E00#16))) K
    (constant (F := Ideal) S512x2048 .f32 0x00000000#32)

/-- Each row's largest score. -/
def rowMaxes (s : FVec Ideal S512x2048 .f32) : FVec Ideal S512 .f32 :=
  multiReduction (F := Ideal) .maximumf [1] S512 s 0xFF800000#32 reduces_S512x2048_S512 (.inl rfl) rfl

/-- The exponentials of the scores less their row's value. -/
def expRows (s : FVec Ideal S512x2048 .f32) (m : FVec Ideal S512 .f32) : FVec Ideal S512x2048 .f32 :=
  Idealize.ShloMosaic.exp (F := Ideal) (subf s (broadcastTo S512x2048 (shapeCast S512x1 m shapeCasts_S512_S512x1) broadcasts_S512x1_S512x2048))

/-- The weighted sum of the value columns divided by the row's total weight. -/
def normed (e : FVec Ideal S512x2048 .f32) (V : FVec Ideal S2048x64 .bf16) : FVec Ideal S512x64 .f32 :=
  divf (matmul (F := Ideal) dot_S512x2048_S2048x64_S512x64_1_0_0_1_n_n none (truncf .bf16 e bitsLt_bf16_f32) V (constant (F := Ideal) S512x64 .f32 0x00000000#32))
    (broadcastTo S512x64
      (shapeCast S512x1 (multiReduction (F := Ideal) .add [1] S512 e 0x00000000#32 reduces_S512x2048_S512 (.inl rfl) rfl) shapeCasts_S512_S512x1)
      broadcasts_S512x1_S512x64)

/-- One head's output from its 64 query, key and value columns. -/
def head (Q : FVec Ideal S512x64 .bf16) (K V : FVec Ideal S2048x64 .bf16) : FVec Ideal S512x64 .f32 :=
  normed (expRows (scores Q K) (rowMaxes (scores Q K))) V

theorem scores_real (Q : FVec Ideal S512x64 .bf16) (K : FVec Ideal S2048x64 .bf16) (fa fb : ℕ → ℕ → ℝ)
    (hQ : IsReal2 Q fa) (hK : IsReal2 K fb) :
    IsReal2 (scores Q K) (fun q k => ∑ d ∈ range 64, (fa q d * (1 / 8)) * fb k d) := by
  intro i
  obtain ⟨q, k, rfl⟩ : ∃ (q : Fin 512) (k : Fin 2048), i = ix2 q k := ⟨i 0, i 1, eq_ix2 i⟩
  refine (matmul_qk_apply _ K q k).trans ?_
  refine Eq.trans ?_ (sum_fin_coe 64 (fun d => (fa q.val d * (1 / 8)) * fb k.val d))
  refine Finset.sum_congr rfl fun d _ => ?_
  show Q (ix2 q d) * Ideal.ofBits .bf16 0x3E00#16 * K (ix2 k d) = _
  rw [hQ (ix2 q d), hK (ix2 k d), ofBits_eighth, ← EReal.coe_mul, ← EReal.coe_mul]

theorem rowMaxes_real (s : FVec Ideal S512x2048 .f32) (g : ℕ → ℕ → ℝ) (hs : IsReal2 s g) (r : Fin 512) :
    rowMaxes s (ix1 r) = ((rowMax (g r.val) : ℝ) : EReal) := by
  refine (Ideal.multiReduction_maximumf_single s 0xFF800000#32 reduces_S512x2048_S512 (.inl rfl) rfl (ix1 r)).trans ?_
  refine Eq.trans ?_ (fold_max_coe (g r.val))
  show (Finset.univ : Finset (Fin 2048)).fold max (Ideal.ofBits .f32 0xFF800000#32) (s ∘ reduces_S512x2048_S512.lift (ix1 r)) = _
  rw [ofBits_neg_inf]
  exact Finset.fold_congr fun k _ => hs _

theorem rowSums_real (e : FVec Ideal S512x2048 .f32) (g : ℕ → ℕ → ℝ) (he : IsReal2 e g) (r : Fin 512) :
    multiReduction (F := Ideal) .add [1] S512 e 0x00000000#32 reduces_S512x2048_S512 (.inl rfl) rfl (ix1 r)
      = ((∑ k ∈ range 2048, g r.val k : ℝ) : EReal) := by
  refine (Ideal.multiReduction_add_single e 0x00000000#32 reduces_S512x2048_S512 (.inl rfl) rfl (ix1 r)).trans ?_
  refine Eq.trans ?_ (sum_fin_coe 2048 (g r.val))
  show ∑ k : Fin 2048, e (reduces_S512x2048_S512.lift (ix1 r) k) = _
  exact Finset.sum_congr rfl fun k _ => he _

theorem expRows_real (s : FVec Ideal S512x2048 .f32) (m : FVec Ideal S512 .f32) (g : ℕ → ℕ → ℝ) (hs : IsReal2 s g)
    (hm : ∀ r : Fin 512, m (ix1 r) = ((rowMax (g r.val) : ℝ) : EReal)) :
    IsReal2 (expRows s m) (fun q k => Real.exp (g q k - rowMax (g q))) := by
  intro i
  obtain ⟨q, k, rfl⟩ : ∃ (q : Fin 512) (k : Fin 2048), i = ix2 q k := ⟨i 0, i 1, eq_ix2 i⟩
  have h1 : broadcastTo S512x2048 (shapeCast S512x1 m shapeCasts_S512_S512x1) broadcasts_S512x1_S512x2048 (ix2 q k)
      = ((rowMax (g q.val) : ℝ) : EReal) := (spread_apply m _ _ q k).trans (hm q)
  show Ideal.exp (s (ix2 q k) - broadcastTo S512x2048 (shapeCast S512x1 m shapeCasts_S512_S512x1) broadcasts_S512x1_S512x2048 (ix2 q k)) = _
  rw [h1, hs (ix2 q k)]
  show Ideal.exp (((g q.val k.val : ℝ) : EReal) - ((rowMax (g q.val) : ℝ) : EReal)) = _
  rw [← EReal.coe_sub, exp_coe]

theorem normed_real (e : FVec Ideal S512x2048 .f32) (V : FVec Ideal S2048x64 .bf16) (ge fc : ℕ → ℕ → ℝ)
    (he : IsReal2 e ge) (hV : IsReal2 V fc) (hpos : ∀ q, (∑ k ∈ range 2048, ge q k) ≠ 0) :
    IsReal2 (normed e V) (fun q d => (∑ k ∈ range 2048, ge q k * fc k d) / (∑ k ∈ range 2048, ge q k)) := by
  intro i
  obtain ⟨q, d, rfl⟩ : ∃ (q : Fin 512) (d : Fin 64), i = ix2 q d := ⟨i 0, i 1, eq_ix2 i⟩
  have h1 : matmul (F := Ideal) dot_S512x2048_S2048x64_S512x64_1_0_0_1_n_n none (truncf .bf16 e bitsLt_bf16_f32) V (constant (F := Ideal) S512x64 .f32 0x00000000#32) (ix2 q d)
      = ((∑ k ∈ range 2048, ge q.val k * fc k d.val : ℝ) : EReal) := by
    refine (matmul_pv_apply _ V q d).trans ?_
    refine Eq.trans ?_ (sum_fin_coe 2048 (fun k => ge q.val k * fc k d.val))
    refine Finset.sum_congr rfl fun k _ => ?_
    show e (ix2 q k) * V (ix2 k d) = _
    rw [he (ix2 q k), hV (ix2 k d), ← EReal.coe_mul]
  have h2 : broadcastTo S512x64
      (shapeCast S512x1 (multiReduction (F := Ideal) .add [1] S512 e 0x00000000#32 reduces_S512x2048_S512 (.inl rfl) rfl) shapeCasts_S512_S512x1)
      broadcasts_S512x1_S512x64 (ix2 q d) = ((∑ k ∈ range 2048, ge q.val k : ℝ) : EReal) :=
    (spread_apply _ _ _ q d).trans (rowSums_real e ge he q)
  exact (congrArg₂ Ideal.div h1 h2).trans (div_coe_coe _ _ (hpos q.val))

/-- One head of reals is the kernel's arrangement of that head, `Cert.Spec.kHead`. -/
theorem head_real (Q : FVec Ideal S512x64 .bf16) (K V : FVec Ideal S2048x64 .bf16) (fq fk fv : ℕ → ℕ → ℕ → ℝ) (h : ℕ)
    (hQ : IsReal2 Q (fun q d => fq 0 q (64 * h + d))) (hK : IsReal2 K (fun k d => fk 0 k (64 * h + d)))
    (hV : IsReal2 V (fun k d => fv 0 k (64 * h + d))) :
    IsReal2 (head Q K V) (fun q d => kHead fq fk fv 0 h q d) := by
  have hs := scores_real Q K _ _ hQ hK
  have hm := rowMaxes_real (scores Q K) _ hs
  have he := expRows_real (scores Q K) (rowMaxes (scores Q K)) _ hs hm
  exact normed_real _ V _ _ he hV (fun q => (sum_exp_pos _).ne')

/-! ## A pair of heads, the scratch, the output projection -/

/-- The first 64 query columns of a pair's strip. -/
def loQ (X : FVec Ideal S512x128 .bf16) : FVec Ideal S512x64 .bf16 :=
  extractStridedSlice S512x64 ![0, 0] (shapeCast S512x128 X shapeCasts_S512x128_S512x128) slices_S512x128_o0_0_S512x64
/-- The last 64 query columns of a pair's strip. -/
def hiQ (X : FVec Ideal S512x128 .bf16) : FVec Ideal S512x64 .bf16 :=
  extractStridedSlice S512x64 ![0, 64] (shapeCast S512x128 X shapeCasts_S512x128_S512x128) slices_S512x128_o0_64_S512x64
/-- The first 64 key or value columns of a pair's strip. -/
def loKV (X : FVec Ideal S2048x128 .bf16) : FVec Ideal S2048x64 .bf16 :=
  extractStridedSlice S2048x64 ![0, 0] (shapeCast S2048x128 X shapeCasts_S2048x128_S2048x128) slices_S2048x128_o0_0_S2048x64
/-- The last 64 key or value columns of a pair's strip. -/
def hiKV (X : FVec Ideal S2048x128 .bf16) : FVec Ideal S2048x64 .bf16 :=
  extractStridedSlice S2048x64 ![0, 64] (shapeCast S2048x128 X shapeCasts_S2048x128_S2048x128) slices_S2048x128_o0_64_S2048x64

/-- One trip's stored block is its two heads side by side. -/
theorem headPair_eq (x0 : Vec Ideal S1x512x1024 .bf16) (x1 x2 : Vec Ideal S1x2048x1024 .bf16) (p : Fin 8) :
    headPair (F := Ideal) x0 x1 x2 p
      = shapeCast S512x128 (truncf .bf16 (concatenate S512x128 1
          [⟨S512x64, head (loQ (colsQ x0 p)) (loKV (colsKV x1 p)) (loKV (colsKV x2 p))⟩,
           ⟨S512x64, head (hiQ (colsQ x0 p)) (hiKV (colsKV x1 p)) (hiKV (colsKV x2 p))⟩]
          concatenates_S512x64_S512x64_S512x128_d1) bitsLt_bf16_f32) shapeCasts_S512x128_S512x128 := rfl

theorem colsQ_real (x0 : Vec Ideal S1x512x1024 .bf16) (fq : ℕ → ℕ → ℕ → ℝ) (h0 : IsReal3 x0 fq) (p : Fin 8) :
    IsReal2 (colsQ (F := Ideal) x0 p) (fun q c => fq 0 q (128 * p.val + c)) := fun i => h0 _

theorem colsKV_real (x : Vec Ideal S1x2048x1024 .bf16) (f : ℕ → ℕ → ℕ → ℝ) (h : IsReal3 x f) (p : Fin 8) :
    IsReal2 (colsKV (F := Ideal) x p) (fun k c => f 0 k (128 * p.val + c)) := fun i => h _

/-- Pair p's block of reals: column c is head 2p + c / 64 at its coordinate c % 64, that is column 128·p + c of
    the heads side by side. -/
theorem headPair_real (x0 : Vec Ideal S1x512x1024 .bf16) (x1 x2 : Vec Ideal S1x2048x1024 .bf16)
    (fq fk fv : ℕ → ℕ → ℕ → ℝ) (h0 : IsReal3 x0 fq) (h1 : IsReal3 x1 fk) (h2 : IsReal3 x2 fv) (p : Fin 8) :
    IsReal2 (headPair (F := Ideal) x0 x1 x2 p) (fun q c => kAttn fq fk fv 0 q (128 * p.val + c)) := by
  have hQ := colsQ_real x0 fq h0 p
  have hK := colsKV_real x1 fk h1 p
  have hV := colsKV_real x2 fv h2 p
  have hA := head_real (loQ (colsQ x0 p)) (loKV (colsKV x1 p)) (loKV (colsKV x2 p)) fq fk fv (2 * p.val)
    (half_real 0 _ _ _ _ _ hQ (fun a d hd => congrArg (fq 0 a) (by omega)))
    (half_real 0 _ _ _ _ _ hK (fun a d hd => congrArg (fk 0 a) (by omega)))
    (half_real 0 _ _ _ _ _ hV (fun a d hd => congrArg (fv 0 a) (by omega)))
  have hB := head_real (hiQ (colsQ x0 p)) (hiKV (colsKV x1 p)) (hiKV (colsKV x2 p)) fq fk fv (2 * p.val + 1)
    (half_real 64 _ _ _ _ _ hQ (fun a d hd => congrArg (fq 0 a) (by omega)))
    (half_real 64 _ _ _ _ _ hK (fun a d hd => congrArg (fk 0 a) (by omega)))
    (half_real 64 _ _ _ _ _ hV (fun a d hd => congrArg (fv 0 a) (by omega)))
  intro i
  obtain ⟨q, c, rfl⟩ : ∃ (q : Fin 512) (c : Fin 128), i = ix2 q c := ⟨i 0, i 1, eq_ix2 i⟩
  rw [headPair_eq, shapeCast_self]
  show concatenate S512x128 1
      [⟨S512x64, head (loQ (colsQ x0 p)) (loKV (colsKV x1 p)) (loKV (colsKV x2 p))⟩,
       ⟨S512x64, head (hiQ (colsQ x0 p)) (hiKV (colsKV x1 p)) (hiKV (colsKV x2 p))⟩]
      concatenates_S512x64_S512x64_S512x128_d1 (ix2 q c)
    = ((kAttn fq fk fv 0 q.val (128 * p.val + c.val) : ℝ) : EReal)
  have hc128 := c.isLt
  by_cases hc : c.val < 64
  · refine (concatenate_pair_apply_left 1 _ _ concatenates_S512x64_S512x64_S512x128_d1 (ix2 q c) rfl (ix2 q ⟨c.val, hc⟩)
      (fun b => by
        match b with
        | ⟨0, _⟩ => rfl
        | ⟨1, _⟩ => rfl)).trans ?_
    refine (hA (ix2 q ⟨c.val, hc⟩)).trans ?_
    show ((kHead fq fk fv 0 (2 * p.val) q.val c.val : ℝ) : EReal)
      = ((kHead fq fk fv 0 ((128 * p.val + c.val) / 64) q.val ((128 * p.val + c.val) % 64) : ℝ) : EReal)
    rw [show (128 * p.val + c.val) / 64 = 2 * p.val by omega, show (128 * p.val + c.val) % 64 = c.val by omega]
  · have hc' : c.val - 64 < 64 := by omega
    refine (concatenate_pair_apply_right 1 _ _ concatenates_S512x64_S512x64_S512x128_d1 (ix2 q c) rfl rfl (ix2 q ⟨c.val - 64, hc'⟩)
      (fun b hb => by
        match b, hb with
        | ⟨0, _⟩, _ => rfl
        | ⟨1, _⟩, hb => exact absurd rfl hb)
      (by show (c.val - 64) + 64 = c.val; omega)).trans ?_
    refine (hB (ix2 q ⟨c.val - 64, hc'⟩)).trans ?_
    show ((kHead fq fk fv 0 (2 * p.val + 1) q.val (c.val - 64) : ℝ) : EReal)
      = ((kHead fq fk fv 0 ((128 * p.val + c.val) / 64) q.val ((128 * p.val + c.val) % 64) : ℝ) : EReal)
    rw [show (128 * p.val + c.val) / 64 = 2 * p.val + 1 by omega, show (128 * p.val + c.val) % 64 = c.val - 64 by omega]

/-- The scratch of reals is the heads side by side, `Cert.Spec.kAttn`. -/
theorem scr_real (x0 : Vec Ideal S1x512x1024 .bf16) (x1 x2 : Vec Ideal S1x2048x1024 .bf16)
    (fq fk fv : ℕ → ℕ → ℕ → ℝ) (h0 : IsReal3 x0 fq) (h1 : IsReal3 x1 fk) (h2 : IsReal3 x2 fv) :
    IsReal2 (scr (F := Ideal) x0 x1 x2) (fun q j => kAttn fq fk fv 0 q j) := by
  intro y
  refine (headPair_real x0 x1 x2 fq fk fv h0 h1 h2 ⟨(y 1).val / 128, by have := idx2_lt1 y; omega⟩
    (ix2 (y 0) ⟨(y 1).val % 128, Nat.mod_lt _ (by decide)⟩)).trans ?_
  show ((kAttn fq fk fv 0 (y 0).val (128 * ((y 1).val / 128) + (y 1).val % 128) : ℝ) : EReal)
    = ((kAttn fq fk fv 0 (y 0).val (y 1).val : ℝ) : EReal)
  rw [Nat.div_add_mod]

/-- The output projection of a block of reals by a weight block of reals. -/
theorem outProj_real (v1 : Vec Ideal S512x1024 .bf16) (v2 : Vec Ideal S1024x1024 .bf16) (fa fw : ℕ → ℕ → ℝ)
    (h1 : IsReal2 v1 fa) (h2 : IsReal2 v2 fw) (u : Fin 1) (q : Fin 512) (e : Fin 1024) :
    k1_pay2 (F := Ideal) v1 v2 (ix3 u q e) = ((∑ j ∈ range 1024, fa q.val j * fw j e.val : ℝ) : EReal) := by
  show shapeCast S1x512x1024
      (matmul (F := Ideal) dot_S512x1024_S1024x1024_S512x1024_1_0_0_1_n_n none v1 (shapeCast S1024x1024 v2 shapeCasts_S1024x1024_S1024x1024)
        (constant (F := Ideal) S512x1024 .f32 0x00000000#32))
      shapeCasts_S512x1024_S1x512x1024 (ix3 u q e) = _
  refine (shapeCast_ab_1ab_apply _ shapeCasts_S512x1024_S1x512x1024 u q e).trans ?_
  refine (matmul_ow_apply v1 _ q e).trans ?_
  refine Eq.trans ?_ (sum_fin_coe 1024 (fun j => fa q.val j * fw j e.val))
  refine Finset.sum_congr rfl fun j _ => ?_
  rw [shapeCast_self, h1 (ix2 q j), h2 (ix2 j e), ← EReal.coe_mul]

theorem out1_4_real (x0 : Vec Ideal S1x512x1024 .bf16) (x1 x2 : Vec Ideal S1x2048x1024 .bf16) (x3 : Vec Ideal S1024x1024 .bf16)
    (fq fk fv : ℕ → ℕ → ℕ → ℝ) (fw : ℕ → ℕ → ℝ)
    (h0 : IsReal3 x0 fq) (h1 : IsReal3 x1 fk) (h2 : IsReal3 x2 fv) (h3 : IsReal2 x3 fw) :
    IsReal3 (out1_4 (F := Ideal) x0 x1 x2 x3) (kOut fq fk fv (fun e j => fw j e)) := by
  intro i
  obtain ⟨u, q, e, rfl⟩ : ∃ (u : Fin 1) (q : Fin 512) (e : Fin 1024), i = ix3 u q e := ⟨i 0, i 1, i 2, eq_ix3 i⟩
  obtain rfl : u = 0 := Subsingleton.elim _ _
  exact outProj_real (scr x0 x1 x2) x3 _ fw (scr_real x0 x1 x2 fq fk fv h0 h1 h2) h3 0 q e

end Cert.KernelIdeal.Hand

end
-- ==== Proof.Arrays1.lean ====
/-
  From blocks to arrays, at the extended reals: the array each pipeline leaves in its output window, read at an
  index, when the arrays it reads hold reals. The projection pipeline's grid point (i, j) writes block (i, j) of
  the packed projections; the attention pipeline's point (b, i) writes rows 512·i … of batch b.
-/
import proofs.«429044_j39298950759077_3_alg».proof.Proof.Dats
import proofs.«429044_j39298950759077_3_alg».proof.Proof.Value1
import Idealize.ShloMosaic.Lib.Pipeline.Value

set_option maxRecDepth 16384

noncomputable section

namespace Cert.KernelIdeal.Hand

open Cert.KernelIdeal Cert.KernelIdeal.Gen Cert.Spec Cert.LibReal
open Idealize.ShloMosaic Idealize.ShloMosaic.TcCoe Idealize.SL.Sem Finset
open Idealize.ShloMosaic.Pipeline (Dat)

/-- The printed index maps of the attention pipeline's five windows, decided over its sixteen grid points: point t
    is batch t / 4 and row block t % 4; the queries and the output move with both, the keys and values with the
    batch only (column blocks 1 and 2), the weight is one block. -/
theorem idx_attn : ∀ t : Fin cfg1.N,
      win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_3.index t (0 : Fin 2) = 0 ∧ win1_3.index t (1 : Fin 2) = 0
    ∧ win1_4.index t (0 : Fin 3) = t.val / 4 ∧ win1_4.index t (1 : Fin 3) = t.val % 4 ∧ win1_4.index t (2 : Fin 3) = 0 :=
  (by decide +kernel : ∀ t : Fin grid1.N, _)

/-- The kernel's attention read at a shifted batch and row: it reads the queries only at its own batch and row,
    the keys and values only at its own batch. -/
theorem kOut_shift (qf : ℕ → ℕ → ℕ → ℝ) (wo : ℕ → ℕ → ℝ) (b r q e : ℕ) :
    kOut (fun _ q j => qf b (r + q) j) (fun _ k j => qf b k (1024 + j)) (fun _ k j => qf b k (2048 + j)) wo 0 q e
      = kOut qf (fun b s j => qf b s (1024 + j)) (fun b s j => qf b s (2048 + j)) wo b (r + q) e := by
  rfl

/-- The attention of the packed projections (queries in columns 0–1023, keys in 1024–2047, values in 2048–3071)
    followed by the output projection by the weight read transposed: what the output array holds, at an index. -/
abbrev attnArr (qf : ℕ → ℕ → ℕ → ℝ) (w : ℕ → ℕ → ℝ) : S4x2048x1024.Idx → EReal := fun i =>
  ((kOut qf (fun b s j => qf b s (1024 + j)) (fun b s j => qf b s (2048 + j)) (fun e j => w j e) (i 0).val (i 1).val (i 2).val : ℝ) : EReal)

variable (V : (c : Dev nD) → (b : Ref sig .tc) → Buf (Elt Ideal) ((c : Thread nD τ).loc b))

/-- The query block at point t: rows 512·(t % 4) … of batch t / 4, columns 0–1023 of the packed projections. -/
theorem blkQ_real (c : Dev nD) (qf : ℕ → ℕ → ℕ → ℝ) (h9 : IsReal3 (V c main_v9) qf) (t : Fin cfg1.N) :
    IsReal3 (n0 := 1) (n1 := 512) (n2 := 1024) (iblk1 V c 0 t) (fun _ q j => qf (t.val / 4) (512 * (t.val % 4) + q) j) := by
  obtain ⟨e0, e1, e2, -⟩ := idx_attn t
  intro y
  show V c main_v9 (((cfg1.win 0).blk t).view.emb y) = _
  rw [h9]
  have hy0 : (y 0).val < 1 := (y 0).isLt
  have a0 : ((((cfg1.win 0).blk t).view.emb y) 0).val = t.val / 4 := by
    show win1_0.index t (0 : Fin 3) * 1 + 1 * (y 0).val = _
    omega
  have a1 : ((((cfg1.win 0).blk t).view.emb y) 1).val = 512 * (t.val % 4) + (y 1).val := by
    show win1_0.index t (1 : Fin 3) * 512 + 1 * (y 1).val = _
    omega
  have a2 : ((((cfg1.win 0).blk t).view.emb y) 2).val = (y 2).val := by
    show win1_0.index t (2 : Fin 3) * 1024 + 1 * (y 2).val = _
    omega
  rw [a0, a1, a2]

/-- The key block at point t: all 2048 rows of batch t / 4, columns 1024–2047 of the packed projections. -/
theorem blkK_real (c : Dev nD) (qf : ℕ → ℕ → ℕ → ℝ) (h9 : IsReal3 (V c main_v9) qf) (t : Fin cfg1.N) :
    IsReal3 (n0 := 1) (n1 := 2048) (n2 := 1024) (iblk1 V c 1 t) (fun _ k j => qf (t.val / 4) k (1024 + j)) := by
  obtain ⟨-, -, -, e0, e1, e2, -⟩ := idx_attn t
  intro y
  show V c main_v9 (((cfg1.win 1).blk t).view.emb y) = _
  rw [h9]
  have hy0 : (y 0).val < 1 := (y 0).isLt
  have a0 : ((((cfg1.win 1).blk t).view.emb y) 0).val = t.val / 4 := by
    show win1_1.index t (0 : Fin 3) * 1 + 1 * (y 0).val = _
    omega
  have a1 : ((((cfg1.win 1).blk t).view.emb y) 1).val = (y 1).val := by
    show win1_1.index t (1 : Fin 3) * 2048 + 1 * (y 1).val = _
    omega
  have a2 : ((((cfg1.win 1).blk t).view.emb y) 2).val = 1024 + (y 2).val := by
    show win1_1.index t (2 : Fin 3) * 1024 + 1 * (y 2).val = _
    omega
  rw [a0, a1, a2]

/-- The value block at point t: all 2048 rows of batch t / 4, columns 2048–3071 of the packed projections. -/
theorem blkV_real (c : Dev nD) (qf : ℕ → ℕ → ℕ → ℝ) (h9 : IsReal3 (V c main_v9) qf) (t : Fin cfg1.N) :
    IsReal3 (n0 := 1) (n1 := 2048) (n2 := 1024) (iblk1 V c 2 t) (fun _ k j => qf (t.val / 4) k (2048 + j)) := by
  obtain ⟨-, -, -, -, -, -, e0, e1, e2, -⟩ := idx_attn t
  intro y
  show V c main_v9 (((cfg1.win 2).blk t).view.emb y) = _
  rw [h9]
  have hy0 : (y 0).val < 1 := (y 0).isLt
  have a0 : ((((cfg1.win 2).blk t).view.emb y) 0).val = t.val / 4 := by
    show win1_2.index t (0 : Fin 3) * 1 + 1 * (y 0).val = _
    omega
  have a1 : ((((cfg1.win 2).blk t).view.emb y) 1).val = (y 1).val := by
    show win1_2.index t (1 : Fin 3) * 2048 + 1 * (y 1).val = _
    omega
  have a2 : ((((cfg1.win 2).blk t).view.emb y) 2).val = 2048 + (y 2).val := by
    show win1_2.index t (2 : Fin 3) * 1024 + 1 * (y 2).val = _
    omega
  rw [a0, a1, a2]

/-- The weight block at every point: the whole weight array. -/
theorem blkW_real (c : Dev nD) (w : ℕ → ℕ → ℝ) (h7 : IsReal2 (V c main_v7) w) (t : Fin cfg1.N) :
    IsReal2 (n0 := 1024) (n1 := 1024) (iblk1 V c 3 t) w := by
  obtain ⟨-, -, -, -, -, -, -, -, -, e0, e1, -⟩ := idx_attn t
  intro y
  show V c main_v7 (((cfg1.win 3).blk t).view.emb y) = _
  rw [h7]
  have a0 : ((((cfg1.win 3).blk t).view.emb y) 0).val = (y 0).val := by
    show win1_3.index t (0 : Fin 2) * 1024 + 1 * (y 0).val = _
    omega
  have a1 : ((((cfg1.win 3).blk t).view.emb y) 1).val = (y 1).val := by
    show win1_3.index t (1 : Fin 2) * 1024 + 1 * (y 1).val = _
    omega
  rw [a0, a1]

/-- WHAT POINT t WRITES BACK is block t of the attention array: the body's output block at the point's query, key,
    value and weight blocks is the attention of those blocks, which is the attention of the packed projections at
    batch t / 4 and rows 512·(t % 4) …. -/
theorem flushed_attn (c : Dev nD) (qf : ℕ → ℕ → ℕ → ℝ) (w : ℕ → ℕ → ℝ) (h9 : IsReal3 (V c main_v9) qf)
    (h7 : IsReal2 (V c main_v7) w) (t : Fin cfg1.N) :
    (dat1 (F := Ideal) V c).flushed 4 t = ((cfg1.win 4).blk t).view.read (Elt Ideal) (attnArr qf w) := by
  show (cfg1.win 4).cut (cfg1.grid.coords t) ((dat1 (F := Ideal) V c).after 4 t) = _
  rw [after1_4]
  obtain ⟨-, -, -, -, -, -, -, -, -, -, -, e0, e1, e2⟩ := idx_attn t
  have hout := out1_4_real (iblk1 V c 0 t) (iblk1 V c 1 t) (iblk1 V c 2 t) (iblk1 V c 3 t) _ _ _ _
    (blkQ_real V c qf h9 t) (blkK_real V c qf h9 t) (blkV_real V c qf h9 t) (blkW_real V c w h7 t)
  funext y
  have hy0 : (y 0).val < 1 := (y 0).isLt
  refine (hout ((cfg1.win 4).xinj (cfg1.grid.coords t) y)).trans ?_
  show ((kOut _ _ _ _ (y 0).val (y 1).val (y 2).val : ℝ) : EReal) = attnArr qf w (((cfg1.win 4).blk t).view.emb y)
  have a0 : ((((cfg1.win 4).blk t).view.emb y) 0).val = t.val / 4 := by
    show win1_4.index t (0 : Fin 3) * 1 + 1 * (y 0).val = _
    omega
  have a1 : ((((cfg1.win 4).blk t).view.emb y) 1).val = 512 * (t.val % 4) + (y 1).val := by
    show win1_4.index t (1 : Fin 3) * 512 + 1 * (y 1).val = _
    omega
  have a2 : ((((cfg1.win 4).blk t).view.emb y) 2).val = (y 2).val := by
    show win1_4.index t (2 : Fin 3) * 1024 + 1 * (y 2).val = _
    omega
  have hz : (y 0).val = 0 := by omega
  show _ = ((kOut _ _ _ _ ((((cfg1.win 4).blk t).view.emb y) 0).val ((((cfg1.win 4).blk t).view.emb y) 1).val ((((cfg1.win 4).blk t).view.emb y) 2).val : ℝ) : EReal)
  rw [a0, a1, a2, hz, kOut_shift]

/-- An index of the output array is in point t's block iff each coordinate is in the block's range on its axis. -/
theorem mem_blk_attn (t : Fin cfg1.N) (i : S4x2048x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v10).slice (win1_4.rect t)).set ↔ _
  rw [View.set_slice_whole, Rect.mem_set_unit]
  exact Iff.rfl

/-- THE OUTPUT'S BLOCKS TILE THE ARRAY: index (b, s, e) is in the block of the point 4·b + s / 512. -/
theorem cover_attn (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  have hlt : 4 * (i 0).val + (i 1).val / 512 < 16 := by omega
  obtain ⟨t, ht⟩ : ∃ t : Fin cfg1.N, t.val = 4 * (i 0).val + (i 1).val / 512 := ⟨⟨_, lt_of_lt_of_eq hlt N_1.symm⟩, rfl⟩
  obtain ⟨-, -, -, -, -, -, -, -, -, -, -, e0, e1, e2⟩ := idx_attn t
  refine ⟨t, flush1_4 t, ?_⟩
  rw [mem_blk_attn]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 1024 ≤ (i 2).val ∧ (i 2).val < win1_4.index t (2 : Fin 3) * 1024 + 1024
    omega

theorem arr1_real (c : Dev nD) (qf : ℕ → ℕ → ℕ → ℝ) (w : ℕ → ℕ → ℝ) (h9 : IsReal3 (V c main_v9) qf) (h7 : IsReal2 (V c main_v7) w) :
    IsReal3 ((dat1 (F := Ideal) V c).arrAt 4 cfg1.N)
      (kOut qf (fun b s j => qf b s (1024 + j)) (fun b s j => qf b s (2048 + j)) (fun e j => w j e)) := by
  have e : (dat1 (F := Ideal) V c).arrAt 4 cfg1.N = attnArr qf w :=
    (dat1 (F := Ideal) V c).arrAt_eq_of_cover 4 (attnArr qf w) (fun t _ => flushed_attn V c qf w h9 h7 t) cover_attn
  intro i
  rw [e]

end Cert.KernelIdeal.Hand

end
-- ==== Proof.Alg.lean ====
/-
  The two arrangements of attention are one function over the reals.
-/
import proofs.«429044_j39298950759077_3_alg».proof.Proof.Spec

noncomputable section

namespace Cert.Spec

open Finset

/-- Scaling the query by 1/8 inside each product term is dividing the whole sum by 8. -/
theorem kScore_eq_rScore (Q K : ℕ → ℕ → ℕ → ℝ) : kScore Q K = rScore Q K := by
  funext b h q k
  unfold kScore rScore
  rw [Finset.sum_div]
  refine Finset.sum_congr rfl ?_
  intro d _
  ring

/-- Equal scores give equal shifted exponentials, the row's largest entry being taken of the same row. -/
theorem kExp_eq_rExp (Q K : ℕ → ℕ → ℕ → ℝ) : kExp Q K = rExp Q K := by
  funext b h q k
  unfold kExp rExp
  rw [kScore_eq_rScore]

/-- Dividing the weighted sum by the row's total is weighting by the normalised weights. -/
theorem kHead_eq_rHead (Q K V : ℕ → ℕ → ℕ → ℝ) (b h q d : ℕ) : kHead Q K V b h q d = rHead Q K V b h q d := by
  unfold kHead rHead rWeight
  rw [kExp_eq_rExp, Finset.sum_div]
  refine Finset.sum_congr rfl ?_
  intro k _
  ring

/-- Scaling the query by 1/8 before the product, and dividing the weighted sum by the row's total afterwards, gives
    what dividing the product by 8 and normalising the weights first gives. -/
theorem kOut_eq_rOut (Q K V : ℕ → ℕ → ℕ → ℝ) (wo : ℕ → ℕ → ℝ) (b s e : ℕ) : kOut Q K V wo b s e = rOut Q K V wo b s e := by
  unfold kOut rOut kAttn
  refine Finset.sum_congr rfl ?_
  intro j _
  rw [kHead_eq_rHead]

/-- The row's largest entry only reads the row's 2048 entries. -/
theorem rowMax_congr (g g' : ℕ → ℝ) (hg : ∀ k, k < 2048 → g k = g' k) : rowMax g = rowMax g' := by
  unfold rowMax
  exact Finset.sup'_congr _ rfl (fun k hk => hg k (Finset.mem_range.mp hk))

/-- One score only reads the query's row and the key's row at the head's 64 columns, all below 1024. -/
theorem kScore_congr (Q K Q' K' : ℕ → ℕ → ℕ → ℝ) (b h q k : ℕ) (hh : h < 16)
    (hQ : ∀ j, j < 1024 → Q b q j = Q' b q j) (hK : ∀ j, j < 1024 → K b k j = K' b k j) :
    kScore Q K b h q k = kScore Q' K' b h q k := by
  unfold kScore
  refine Finset.sum_congr rfl ?_
  intro d hd
  have hd' : d < 64 := Finset.mem_range.mp hd
  have hj : 64 * h + d < 1024 := by omega
  rw [hQ _ hj, hK _ hj]

/-- One shifted exponential only reads the query's row and the 2048 key rows inside the ranges. -/
theorem kExp_congr (Q K Q' K' : ℕ → ℕ → ℕ → ℝ) (b h q k : ℕ) (hh : h < 16) (hk : k < 2048)
    (hQ : ∀ j, j < 1024 → Q b q j = Q' b q j) (hK : ∀ k j, k < 2048 → j < 1024 → K b k j = K' b k j) :
    kExp Q K b h q k = kExp Q' K' b h q k := by
  unfold kExp
  rw [kScore_congr Q K Q' K' b h q k hh hQ (fun j hj => hK k j hk hj),
    rowMax_congr (kScore Q K b h q) (kScore Q' K' b h q)
      (fun k' hk' => kScore_congr Q K Q' K' b h q k' hh hQ (fun j hj => hK k' j hk' hj))]

/-- One head's output only reads its arguments inside the ranges. -/
theorem kHead_congr (Q K V Q' K' V' : ℕ → ℕ → ℕ → ℝ) (b h q d : ℕ) (hh : h < 16) (hd : d < 64)
    (hQ : ∀ j, j < 1024 → Q b q j = Q' b q j) (hK : ∀ k j, k < 2048 → j < 1024 → K b k j = K' b k j)
    (hV : ∀ k j, k < 2048 → j < 1024 → V b k j = V' b k j) :
    kHead Q K V b h q d = kHead Q' K' V' b h q d := by
  unfold kHead
  have hj : 64 * h + d < 1024 := by omega
  have hnum : (∑ k ∈ range 2048, kExp Q K b h q k * V b k (64 * h + d))
      = ∑ k ∈ range 2048, kExp Q' K' b h q k * V' b k (64 * h + d) := by
    refine Finset.sum_congr rfl ?_
    intro k hk
    have hk' : k < 2048 := Finset.mem_range.mp hk
    rw [kExp_congr Q K Q' K' b h q k hh hk' hQ hK, hV k _ hk' hj]
  have hden : (∑ k ∈ range 2048, kExp Q K b h q k) = ∑ k ∈ range 2048, kExp Q' K' b h q k := by
    refine Finset.sum_congr rfl ?_
    intro k hk
    exact kExp_congr Q K Q' K' b h q k hh (Finset.mem_range.mp hk) hQ hK
  rw [hnum, hden]

/-- The kernel's arrangement only reads its arguments inside the arrays' ranges. -/
theorem kOut_congr (Q K V Q' K' V' : ℕ → ℕ → ℕ → ℝ) (wo wo' : ℕ → ℕ → ℝ) (b s e : ℕ)
    (hQ : ∀ j, j < 1024 → Q b s j = Q' b s j) (hK : ∀ k j, k < 2048 → j < 1024 → K b k j = K' b k j)
    (hV : ∀ k j, k < 2048 → j < 1024 → V b k j = V' b k j) (hwo : ∀ j, j < 1024 → wo e j = wo' e j) :
    kOut Q K V wo b s e = kOut Q' K' V' wo' b s e := by
  unfold kOut kAttn
  refine Finset.sum_congr rfl ?_
  intro j hj
  have hj' : j < 1024 := Finset.mem_range.mp hj
  have hh : j / 64 < 16 := by omega
  have hd : j % 64 < 64 := by omega
  rw [kHead_congr Q K V Q' K' V' b (j / 64) s (j % 64) hh hd hQ hK hV, hwo j hj']

end Cert.Spec

end
-- ==== Proof.KValue.lean ====
/-
  The result array the kernel program leaves, at the extended reals: when the five arguments hold reals it is the
  kernel's arrangement of attention (`Cert.Spec.kOut`) of the three projections of the input — the host
  operations, the projection pipeline, the reshape and the attention pipeline composed.
-/
import proofs.«429044_j39298950759077_3_alg».proof.Proof.KFrame
import proofs.«429044_j39298950759077_3_alg».proof.Proof.HostOps
import proofs.«429044_j39298950759077_3_alg».proof.Proof.Arrays0
import proofs.«429044_j39298950759077_3_alg».proof.Proof.Arrays1
import proofs.«429044_j39298950759077_3_alg».proof.Proof.Alg

set_option maxRecDepth 16384

noncomputable section

namespace Cert.KernelIdeal.Hand

open Cert.KernelIdeal Cert.KernelIdeal.Gen Cert.Spec
open Idealize.ShloMosaic Idealize.ShloMosaic.TcCoe Idealize.SL.Sem Finset

/-- The three weights side by side, read transposed: column j of the packed weight. -/
def cat (wq wk wv : ℕ → ℕ → ℝ) (d j : ℕ) : ℝ :=
  if j < 1024 then wq j d else if j < 2048 then wk (j - 1024) d else wv (j - 2048) d

/-- The packed projections as the attention pipeline reads them: row b·2048 + s of the product. -/
def packed (x : ℕ → ℕ → ℕ → ℝ) (wq wk wv : ℕ → ℕ → ℝ) (b s j : ℕ) : ℝ :=
  ∑ d ∈ range 1024, x ((b * 2048 + s) / 2048) ((b * 2048 + s) % 2048) d * cat wq wk wv d j

theorem packed_q (x : ℕ → ℕ → ℕ → ℝ) (wq wk wv : ℕ → ℕ → ℝ) (b s j : ℕ) (hs : s < 2048) (hj : j < 1024) :
    packed x wq wk wv b s j = proj x wq b s j := by
  unfold packed proj cat
  rw [show (b * 2048 + s) / 2048 = b by omega, show (b * 2048 + s) % 2048 = s by omega]
  exact Finset.sum_congr rfl fun d _ => by rw [if_pos hj]

theorem packed_k (x : ℕ → ℕ → ℕ → ℝ) (wq wk wv : ℕ → ℕ → ℝ) (b s j : ℕ) (hs : s < 2048) (hj : j < 1024) :
    packed x wq wk wv b s (1024 + j) = proj x wk b s j := by
  unfold packed proj cat
  rw [show (b * 2048 + s) / 2048 = b by omega, show (b * 2048 + s) % 2048 = s by omega]
  exact Finset.sum_congr rfl fun d _ => by
    rw [if_neg (by omega), if_pos (by omega), show 1024 + j - 1024 = j by omega]

theorem packed_v (x : ℕ → ℕ → ℕ → ℝ) (wq wk wv : ℕ → ℕ → ℝ) (b s j : ℕ) (hs : s < 2048) (hj : j < 1024) :
    packed x wq wk wv b s (2048 + j) = proj x wv b s j := by
  unfold packed proj cat
  rw [show (b * 2048 + s) / 2048 = b by omega, show (b * 2048 + s) % 2048 = s by omega]
  exact Finset.sum_congr rfl fun d _ => by
    rw [if_neg (by omega), if_neg (by omega), show 2048 + j - 2048 = j by omega]

theorem resArr_real (m : (ℓ : Loc nD τ sig) → Buf (Elt Ideal) ℓ) (c : Dev nD)
    (x : ℕ → ℕ → ℕ → ℝ) (wq wk wv wo : ℕ → ℕ → ℝ)
    (hx : IsReal3 (m ((c.tc : Thread nD τ).loc main_arg0)) x)
    (hq : IsReal2 (m ((c.tc : Thread nD τ).loc main_arg1)) wq)
    (hk : IsReal2 (m ((c.tc : Thread nD τ).loc main_arg2)) wk)
    (hv : IsReal2 (m ((c.tc : Thread nD τ).loc main_arg3)) wv)
    (ho : IsReal2 (m ((c.tc : Thread nD τ).loc main_arg4)) wo) :
    IsReal3 (resArr (F := Ideal) m c) (kOut (proj x wq) (proj x wk) (proj x wv) wo) := by
  have h0 : IsReal2 (V1 m c main_v0) (fun r d => x (r / 2048) (r % 2048) d) := pre_v0_real (W0 m c) x hx
  have h5 : IsReal2 (V1 m c main_v5) (cat wq wk wv) := pre_v5_real (W0 m c) wq wk wv hq hk hv
  have h7a : IsReal2 (W1 m c main_v7) (fun d e => wo e d) := pre_v7_real (W0 m c) wo ho
  have h8a := arr0_real (V1 m) c _ _ h0 h5
  have e8 : W2 m c main_v8 = (dat0 (V1 m) c).arrAt 2 cfg0.N := W2_arr m c 2
  have h8 : IsReal2 (W2 m c main_v8) (fun r j => ∑ d ∈ range 1024, x (r / 2048) (r % 2048) d * cat wq wk wv d j) := by
    rw [e8]; exact h8a
  have h9 : IsReal3 (V3 m c main_v9) (packed x wq wk wv) := mid_v9_real (W2 m c) _ h8
  have e7 : W3 m c main_v7 = W1 m c main_v7 :=
    (StableHlo.after_of_forall_not_mem (b := Proc.devRef .tc main_v7) _ _ (List.forall_iff_forall_mem.mp (by
      simp only [hostOps1, List.Forall, StableHlo.reshape_writes, StableHlo.unary_writes, StableHlo.nary_writes, Finset.mem_singleton]
      exact StableHlo.devRef_ne_of_ne (by decide)))).trans (W2_of_ne m c main_v7 (by decide))
  have h7 : IsReal2 (V3 m c main_v7) (fun d e => wo e d) := by
    show IsReal2 (W3 m c main_v7) _
    rw [e7]; exact h7a
  have hres := arr1_real (V3 m) c (packed x wq wk wv) (fun d e => wo e d) h9 h7
  intro i
  have hb : (i 0).val < 4 := (i 0).isLt
  have hs : (i 1).val < 2048 := (i 1).isLt
  refine (hres i).trans (congrArg _ ?_)
  exact kOut_congr _ _ _ _ _ _ _ _ _ _ _
    (fun j hj => packed_q x wq wk wv _ _ j hs hj)
    (fun k j hk hj => packed_k x wq wk wv _ k j hk hj)
    (fun k j hk hj => packed_v x wq wk wv _ k j hk hj)
    (fun j _ => rfl)

end Cert.KernelIdeal.Hand

end
-- ==== Proof.RefValue.lean ====
/-
  The reference's result read at an index, at the extended reals: when the five arguments hold reals, the result's
  entry (b, s, e) is the reference's arrangement of attention (`Cert.Spec.rOut`) of the three projections.
-/
import proofs.«429044_j39298950759077_3_alg».proof.Proof.Gen.ReferenceIdeal.Run
import proofs.«429044_j39298950759077_3_alg».proof.Proof.Gen.ReferenceIdeal.Read
import proofs.«429044_j39298950759077_3_alg».proof.Proof.Spec
import proofs.«429044_j39298950759077_3_alg».proof.Proof.LibReal
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.Spec Cert.LibReal
open Idealize.ShloMosaic Idealize.ShloMosaic.TcCoe Idealize.SL.Sem Finset

open Cert.ReferenceIdeal.Read

/-- An array of four axes "is real with f" when every entry is the extended real of f at the entry's coordinates. -/
def IsReal4 {n0 n1 n2 n3 : ℕ} (A : (⟨4, ![n0, n1, n2, n3]⟩ : Shape).Idx → EReal) (f : ℕ → ℕ → ℕ → ℕ → ℝ) : Prop :=
  ∀ i, A i = ((f (i 0).val (i 1).val (i 2).val (i 3).val : ℝ) : EReal)

/-- A sum over `Fin n` of products of two families of coerced reals is the coercion of the real sum of products. -/
theorem sum_mul_real (n : ℕ) (A B : Fin n → EReal) (f g : ℕ → ℝ) (hA : ∀ k, A k = ((f k.val : ℝ) : EReal))
    (hB : ∀ k, B k = ((g k.val : ℝ) : EReal)) :
    ∑ k : Fin n, A k * B k = ((∑ d ∈ range n, f d * g d : ℝ) : EReal) := by
  rw [← sum_fin_coe n (fun d => f d * g d)]
  refine Finset.sum_congr rfl fun k _ => ?_
  rw [hA, hB, EReal.coe_mul]

variable (x0 : (⟨S4x2048x1024, .f32⟩ : BufTy).Contents (Elt Ideal)) (x1 x2 x3 x4 : (⟨S1024x1024, .f32⟩ : BufTy).Contents (Elt Ideal))

/-! ### The three projections -/

theorem v0_real (x : ℕ → ℕ → ℕ → ℝ) (w : ℕ → ℕ → ℝ) (hx : IsReal3 x0 x) (hw : IsReal2 x1 w) :
    IsReal3 (val_main_v0 (F := Ideal) x0 x1) (proj x w) := by
  intro i
  rw [val_main_v0_apply]
  exact sum_mul_real 1024 _ _ (fun d => x (i 0).val (i 1).val d) (fun d => w (i 2).val d)
    (fun k => hx (lidx_main_v0 i k)) (fun k => hw (ridx_main_v0 i k))

/-! ### Splitting the last axis into heads and moving the head axis forward -/

/-- Column `64h + d` of a projection is entry `(b, h, s, d)` after the reshape and the transpose. -/
theorem v2_real (P : ℕ → ℕ → ℕ → ℝ) (h0 : IsReal3 (val_main_v0 (F := Ideal) x0 x1) P) :
    IsReal4 (val_main_v2 (F := Ideal) x0 x1) (fun b h s d => P b s (64 * h + d)) := by
  intro i
  rw [val_main_v2_apply, val_main_v1_apply, h0]
  have b0 : (i 0).val < 4 := (i 0).isLt
  have b1 : (i 1).val < 16 := (i 1).isLt
  have b2 : (i 2).val < 2048 := (i 2).isLt
  have b3 : (i 3).val < 64 := (i 3).isLt
  have e0 : ((idx_main_v1 (idx_main_v2 i)) 0).val = (i 0).val := by
    show ((((i 0).val * 2048 + (i 2).val) * 16 + (i 1).val) * 64 + (i 3).val) / 2097152 = (i 0).val; omega
  have e1 : ((idx_main_v1 (idx_main_v2 i)) 1).val = (i 2).val := by
    show ((((i 0).val * 2048 + (i 2).val) * 16 + (i 1).val) * 64 + (i 3).val) / 1024 % 2048 = (i 2).val; omega
  have e2 : ((idx_main_v1 (idx_main_v2 i)) 2).val = 64 * (i 1).val + (i 3).val := by
    show ((((i 0).val * 2048 + (i 2).val) * 16 + (i 1).val) * 64 + (i 3).val) % 1024 = 64 * (i 1).val + (i 3).val; omega
  rw [e0, e1, e2]

theorem v5_real (P : ℕ → ℕ → ℕ → ℝ) (h0 : IsReal3 (val_main_v3 (F := Ideal) x0 x2) P) :
    IsReal4 (val_main_v5 (F := Ideal) x0 x2) (fun b h s d => P b s (64 * h + d)) :=
  v2_real x0 x2 P h0

theorem v8_real (P : ℕ → ℕ → ℕ → ℝ) (h0 : IsReal3 (val_main_v6 (F := Ideal) x0 x3) P) :
    IsReal4 (val_main_v8 (F := Ideal) x0 x3) (fun b h s d => P b s (64 * h + d)) :=
  v2_real x0 x3 P h0

/-! ### The scores -/

theorem v9_real (Q K : ℕ → ℕ → ℕ → ℕ → ℝ) (hQ : IsReal4 (val_main_v2 (F := Ideal) x0 x1) Q)
    (hK : IsReal4 (val_main_v5 (F := Ideal) x0 x2) K) :
    IsReal4 (val_main_v9 (F := Ideal) x0 x1 x2) (fun b h q k => ∑ d ∈ range 64, Q b h q d * K b h k d) := by
  intro i
  rw [val_main_v9_apply]
  exact sum_mul_real 64 _ _ (fun d => Q (i 0).val (i 1).val (i 2).val d) (fun d => K (i 0).val (i 1).val (i 3).val d)
    (fun k => hQ (lidx_main_v9 i k)) (fun k => hK (ridx_main_v9 i k))

/-- The divisor: the square root of 64. -/
theorem v11_eq (i : S4x16x2048x2048.Idx) : val_main_v11 (F := Ideal) i = ((8 : ℝ) : EReal) := by
  rw [val_main_v11_apply, val_main_v10_apply, val_main_cst_apply]
  show Ideal.sqrt (Ideal.ofBits .f32 0x42800000#32) = _
  rw [ofBits_64, sqrt_64]

theorem v12_real (S : ℕ → ℕ → ℕ → ℕ → ℝ) (hS : IsReal4 (val_main_v9 (F := Ideal) x0 x1 x2) S) :
    IsReal4 (val_main_v12 (F := Ideal) x0 x1 x2) (fun b h q k => S b h q k / 8) := by
  intro i
  rw [val_main_v12_apply, hS i, v11_eq i]
  exact div_coe_coe _ _ (by norm_num)

/-! ### A row's maximum -/

theorem v13_real (S : ℕ → ℕ → ℕ → ℕ → ℝ) (hS : IsReal4 (val_main_v12 (F := Ideal) x0 x1 x2) S) :
    IsReal3 (val_main_v13 (F := Ideal) x0 x1 x2) (fun b h q => rowMax (S b h q)) := by
  intro j
  have hr : S4x16x2048x2048.Reduces [3] S4x16x2048 := by decide
  unfold val_main_v13
  rw [Host.reduce_eq_fold_single FloatOps.maximumf _ _ reducesTo_S4x16x2048x2048_S4x16x2048_d3 hr h_S_ j]
  have hf : (val_main_v12 (F := Ideal) x0 x1 x2 ∘ hr.lift j)
      = fun k : Fin 2048 => ((S (j 0).val (j 1).val (j 2).val k.val : ℝ) : EReal) := by
    funext k
    exact hS (hr.lift j k)
  rw [hf, val_main_cst_0_apply]
  show (Finset.univ : Finset (Fin 2048)).fold max (Ideal.ofBits .f32 0xFF800000#32) _ = _
  rw [ofBits_neg_inf]
  exact fold_max_coe (S (j 0).val (j 1).val (j 2).val)

theorem v14_eq (i : S4x16x2048.Idx) : val_main_v14 (F := Ideal) i = (⊥ : EReal) := by
  rw [val_main_v14_apply, val_main_cst_1_apply]
  exact ofBits_neg_inf

theorem v15_real (M : ℕ → ℕ → ℕ → ℝ) (hM : IsReal3 (val_main_v13 (F := Ideal) x0 x1 x2) M) :
    IsReal3 (val_main_v15 (F := Ideal) x0 x1 x2) M := by
  intro i
  rw [val_main_v15_apply, v14_eq, hM i]
  exact max_eq_right bot_le

theorem v17_real (M : ℕ → ℕ → ℕ → ℝ) (hM : IsReal3 (val_main_v15 (F := Ideal) x0 x1 x2) M) :
    IsReal4 (val_main_v17 (F := Ideal) x0 x1 x2) (fun b h q _ => M b h q) := by
  intro i
  rw [val_main_v17_apply, val_main_v16_apply]
  exact hM _

/-! ### The exponentials and a row's total -/

theorem v18_real (S M : ℕ → ℕ → ℕ → ℕ → ℝ) (hS : IsReal4 (val_main_v12 (F := Ideal) x0 x1 x2) S)
    (hM : IsReal4 (val_main_v17 (F := Ideal) x0 x1 x2) M) :
    IsReal4 (val_main_v18 (F := Ideal) x0 x1 x2) (fun b h q k => S b h q k - M b h q k) := by
  intro i
  rw [val_main_v18_apply, hS i, hM i]
  exact (EReal.coe_sub _ _).symm

theorem v19_real (S : ℕ → ℕ → ℕ → ℕ → ℝ) (hS : IsReal4 (val_main_v18 (F := Ideal) x0 x1 x2) S) :
    IsReal4 (val_main_v19 (F := Ideal) x0 x1 x2) (fun b h q k => Real.exp (S b h q k)) := by
  intro i
  rw [val_main_v19_apply, hS i]
  exact exp_coe _

theorem v20_real (E : ℕ → ℕ → ℕ → ℕ → ℝ) (hE : IsReal4 (val_main_v19 (F := Ideal) x0 x1 x2) E) :
    IsReal3 (val_main_v20 (F := Ideal) x0 x1 x2) (fun b h q => ∑ k ∈ range 2048, E b h q k) := by
  intro i
  rw [val_main_v20_apply, val_main_cst_2_apply]
  show Ideal.ofBits .f32 0x00000000#32 + _ = _
  rw [Ideal.ofBits_zero_f32, zero_add, ← sum_fin_coe 2048 (fun k => E (i 0).val (i 1).val (i 2).val k)]
  exact Finset.sum_congr rfl fun k _ => hE (idx_main_v20 i k)

theorem v22_real (D : ℕ → ℕ → ℕ → ℝ) (hD : IsReal3 (val_main_v20 (F := Ideal) x0 x1 x2) D) :
    IsReal4 (val_main_v22 (F := Ideal) x0 x1 x2) (fun b h q _ => D b h q) := by
  intro i
  rw [val_main_v22_apply, val_main_v21_apply]
  exact hD _

theorem v23_real (E D : ℕ → ℕ → ℕ → ℕ → ℝ) (hE : IsReal4 (val_main_v19 (F := Ideal) x0 x1 x2) E)
    (hD : IsReal4 (val_main_v22 (F := Ideal) x0 x1 x2) D) (hne : ∀ b h q k, D b h q k ≠ 0) :
    IsReal4 (val_main_v23 (F := Ideal) x0 x1 x2) (fun b h q k => E b h q k / D b h q k) := by
  intro i
  rw [val_main_v23_apply, hE i, hD i]
  exact div_coe_coe _ _ (hne _ _ _ _)

/-! ### The weighted sum of the values, the heads side by side, and the output projection -/

theorem v24_real (W V : ℕ → ℕ → ℕ → ℕ → ℝ) (hW : IsReal4 (val_main_v23 (F := Ideal) x0 x1 x2) W)
    (hV : IsReal4 (val_main_v8 (F := Ideal) x0 x3) V) :
    IsReal4 (val_main_v24 (F := Ideal) x0 x1 x2 x3) (fun b h q d => ∑ k ∈ range 2048, W b h q k * V b h k d) := by
  intro i
  rw [val_main_v24_apply]
  exact sum_mul_real 2048 _ _ (fun k => W (i 0).val (i 1).val (i 2).val k) (fun k => V (i 0).val (i 1).val k (i 3).val)
    (fun k => hW (lidx_main_v24 i k)) (fun k => hV (ridx_main_v24 i k))

/-- Entry `(b, s, j)` after the transpose and the reshape is head `j / 64`'s coordinate `j % 64`. -/
theorem v26_real (H : ℕ → ℕ → ℕ → ℕ → ℝ) (hH : IsReal4 (val_main_v24 (F := Ideal) x0 x1 x2 x3) H) :
    IsReal3 (val_main_v26 (F := Ideal) x0 x1 x2 x3) (fun b s j => H b (j / 64) s (j % 64)) := by
  intro i
  rw [val_main_v26_apply, val_main_v25_apply, hH]
  have b0 : (i 0).val < 4 := (i 0).isLt
  have b1 : (i 1).val < 2048 := (i 1).isLt
  have b2 : (i 2).val < 1024 := (i 2).isLt
  have e0 : ((idx_main_v25 (idx_main_v26 i)) 0).val = (i 0).val := by
    show (((i 0).val * 2048 + (i 1).val) * 1024 + (i 2).val) / 2097152 = (i 0).val; omega
  have e1 : ((idx_main_v25 (idx_main_v26 i)) 1).val = (i 2).val / 64 := by
    show (((i 0).val * 2048 + (i 1).val) * 1024 + (i 2).val) / 64 % 16 = (i 2).val / 64; omega
  have e2 : ((idx_main_v25 (idx_main_v26 i)) 2).val = (i 1).val := by
    show (((i 0).val * 2048 + (i 1).val) * 1024 + (i 2).val) / 1024 % 2048 = (i 1).val; omega
  have e3 : ((idx_main_v25 (idx_main_v26 i)) 3).val = (i 2).val % 64 := by
    show (((i 0).val * 2048 + (i 1).val) * 1024 + (i 2).val) % 64 = (i 2).val % 64; omega
  rw [e0, e1, e2, e3]

theorem v27_real (A : ℕ → ℕ → ℕ → ℝ) (w : ℕ → ℕ → ℝ) (hA : IsReal3 (val_main_v26 (F := Ideal) x0 x1 x2 x3) A)
    (hw : IsReal2 x4 w) :
    IsReal3 (val_main_v27 (F := Ideal) x0 x1 x2 x3 x4) (fun b s e => ∑ j ∈ range 1024, A b s j * w e j) := by
  intro i
  rw [val_main_v27_apply]
  exact sum_mul_real 1024 _ _ (fun j => A (i 0).val (i 1).val j) (fun j => w (i 2).val j)
    (fun k => hA (lidx_main_v27 i k)) (fun k => hw (ridx_main_v27 i k))

/-! ### The chain -/

theorem v27_rOut (x : ℕ → ℕ → ℕ → ℝ) (wq wk wv wo : ℕ → ℕ → ℝ) (hx : IsReal3 x0 x) (hq : IsReal2 x1 wq)
    (hk : IsReal2 x2 wk) (hv : IsReal2 x3 wv) (ho : IsReal2 x4 wo) :
    IsReal3 (val_main_v27 (F := Ideal) x0 x1 x2 x3 x4) (rOut (proj x wq) (proj x wk) (proj x wv) wo) := by
  have hQ := v2_real x0 x1 _ (v0_real x0 x1 x wq hx hq)
  have hK := v5_real x0 x2 _ (v0_real x0 x2 x wk hx hk)
  have hV := v8_real x0 x3 _ (v0_real x0 x3 x wv hx hv)
  have h12 : IsReal4 (val_main_v12 (F := Ideal) x0 x1 x2) (rScore (proj x wq) (proj x wk)) :=
    v12_real x0 x1 x2 _ (v9_real x0 x1 x2 _ _ hQ hK)
  have h17 := v17_real x0 x1 x2 _ (v15_real x0 x1 x2 _ (v13_real x0 x1 x2 _ h12))
  have h19 : IsReal4 (val_main_v19 (F := Ideal) x0 x1 x2) (rExp (proj x wq) (proj x wk)) :=
    v19_real x0 x1 x2 _ (v18_real x0 x1 x2 _ _ h12 h17)
  have h22 := v22_real x0 x1 x2 _ (v20_real x0 x1 x2 _ h19)
  have h23 : IsReal4 (val_main_v23 (F := Ideal) x0 x1 x2) (rWeight (proj x wq) (proj x wk)) :=
    v23_real x0 x1 x2 _ _ h19 h22 (fun b h q _ => (sum_exp_pos _).ne')
  have h24 : IsReal4 (val_main_v24 (F := Ideal) x0 x1 x2 x3) (rHead (proj x wq) (proj x wk) (proj x wv)) :=
    v24_real x0 x1 x2 x3 _ _ h23 hV
  exact v27_real x0 x1 x2 x3 x4 _ _ (v26_real x0 x1 x2 x3 _ h24) ho

theorem res_real (m : (ℓ : Loc nD τ sig) → Buf (Elt Ideal) ℓ) (c : Dev nD)
    (x : ℕ → ℕ → ℕ → ℝ) (wq wk wv wo : ℕ → ℕ → ℝ)
    (hx : IsReal3 (m ((c.tc : Thread nD τ).loc main_arg0)) x)
    (hq : IsReal2 (m ((c.tc : Thread nD τ).loc main_arg1)) wq)
    (hk : IsReal2 (m ((c.tc : Thread nD τ).loc main_arg2)) wk)
    (hv : IsReal2 (m ((c.tc : Thread nD τ).loc main_arg3)) wv)
    (ho : IsReal2 (m ((c.tc : Thread nD τ).loc main_arg4)) wo) :
    IsReal3 (Cert.ReferenceIdeal.Value.res_out0 (F := Ideal) m c) (rOut (proj x wq) (proj x wk) (proj x wv) wo) := by
  intro i
  show Cert.ReferenceIdeal.Value.res_main_v27 m c i = _
  rw [Cert.ReferenceIdeal.Read.val_main_v27_eq]
  exact v27_rOut _ _ _ _ _ x wq wk wv wo hx hq hk hv ho i

end Cert.ReferenceIdeal.Hand

end
-- ==== Proof.Pre.lean ====
/-
  Under the precondition every entry of the five argument arrays is a real number.
-/
import proofs.«429044_j39298950759077_3_alg».proof.Defs
import proofs.«429044_j39298950759077_3_alg».proof.Proof.Gen.Pre_finite_inputs
import proofs.«429044_j39298950759077_3_alg».proof.Proof.Gen.KernelIdeal
import proofs.«429044_j39298950759077_3_alg».proof.Proof.Spec
import Idealize.ShloMosaic.Lib.ReduceAll
import Idealize.ShloMosaic.Lib.ValueIdx

noncomputable section

namespace Cert.Hand

open Cert.Spec Idealize.ShloMosaic Idealize.ShloMosaic.TcCoe Idealize.SL.Sem

/-- The word of +∞ reads as the top extended real. -/
theorem ofBits_pos_inf : Ideal.ofBits .f32 0x7F800000#32 = (⊤ : EReal) := by
  simp [Ideal.ofBits, Ideal.ieee]

/-- An extended real whose absolute value max a (−a) is strictly below +∞ is neither infinity, so it is a real. -/
theorem real_of_abs_lt (a : EReal) (h : Ideal.cmp .olt (max a (-a)) (Ideal.ofBits .f32 0x7F800000#32) = 1#1) :
    ∃ r : ℝ, a = (r : EReal) := by
  rw [ofBits_pos_inf] at h
  have hlt : max a (-a) < ⊤ := by
    by_contra hn
    simp [Ideal.cmp, hn] at h
  rw [max_lt_iff] at hlt
  refine ⟨a.toReal, (EReal.coe_toReal (ne_of_lt hlt.1) ?_).symm⟩
  intro hb
  rw [hb] at hlt
  exact absurd hlt.2 (by simp)

/-- The scalar shape has one index. -/
instance : Subsingleton Cert.Pre_finite_inputs.S_.Idx := ⟨fun a b => funext fun d => d.elim0⟩

/-- One argument's "all entries have |A| < +∞", read back: every entry of A is a real. -/
theorem real_of_all {s : Shape} (A : FVec Ideal s .f32)
    (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (init : IVec Cert.Pre_finite_inputs.S_ 1)
    (e : Host.reduce IntOp.andi (cmpf .olt (Host.absf A)
      (broadcastInDim s ![] hb (constant (F := Ideal) Cert.Pre_finite_inputs.S_ .f32 0x7F800000#32))) init hr hu ValueIdx.ix0 = 1#1)
    (i : s.Idx) : ∃ r : ℝ, A i = (r : EReal) :=
  real_of_abs_lt (A i) (Host.reduce_andi_all _ init hr hu ValueIdx.ix0 e i)

/-- A rank-3 array of extended reals whose entries are all reals is real with the function of its entries' real parts
    (zero outside the array's extents). -/
theorem exists_fun3 {n0 n1 n2 : ℕ} (A : (⟨3, ![n0, n1, n2]⟩ : Shape).Idx → EReal) (hA : ∀ i, ∃ r : ℝ, A i = (r : EReal)) :
    ∃ f : ℕ → ℕ → ℕ → ℝ, IsReal3 A f := by
  refine ⟨fun a b c => if h : a < n0 ∧ b < n1 ∧ c < n2 then
    (A (ValueIdx.ix3 ⟨a, h.1⟩ ⟨b, h.2.1⟩ ⟨c, h.2.2⟩)).toReal else 0, fun i => ?_⟩
  have hi : (i 0).val < n0 ∧ (i 1).val < n1 ∧ (i 2).val < n2 := ⟨(i 0).isLt, (i 1).isLt, (i 2).isLt⟩
  have hix : ValueIdx.ix3 ⟨(i 0).val, hi.1⟩ ⟨(i 1).val, hi.2.1⟩ ⟨(i 2).val, hi.2.2⟩ = i := (ValueIdx.eq_ix3 i).symm
  obtain ⟨r, hr⟩ := hA i
  dsimp only
  rw [dif_pos hi, hix, hr, EReal.toReal_coe]

/-- The same for a rank-2 array. -/
theorem exists_fun2 {n0 n1 : ℕ} (A : (⟨2, ![n0, n1]⟩ : Shape).Idx → EReal) (hA : ∀ i, ∃ r : ℝ, A i = (r : EReal)) :
    ∃ f : ℕ → ℕ → ℝ, IsReal2 A f := by
  refine ⟨fun a b => if h : a < n0 ∧ b < n1 then (A (ValueIdx.ix2 ⟨a, h.1⟩ ⟨b, h.2⟩)).toReal else 0, fun i => ?_⟩
  have hi : (i 0).val < n0 ∧ (i 1).val < n1 := ⟨(i 0).isLt, (i 1).isLt⟩
  have hix : ValueIdx.ix2 ⟨(i 0).val, hi.1⟩ ⟨(i 1).val, hi.2⟩ = i := (ValueIdx.eq_ix2 i).symm
  obtain ⟨r, hr⟩ := hA i
  dsimp only
  rw [dif_pos hi, hix, hr, EReal.toReal_coe]

theorem reals_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ (x : ℕ → ℕ → ℕ → ℝ) (wq wk wv wo : ℕ → ℕ → ℝ),
      IsReal3 (m ((c.tc : Thread Cert.KernelIdeal.nD Cert.KernelIdeal.τ).loc Cert.KernelIdeal.main_arg0)) x
      ∧ IsReal2 (m ((c.tc : Thread Cert.KernelIdeal.nD Cert.KernelIdeal.τ).loc Cert.KernelIdeal.main_arg1)) wq
      ∧ IsReal2 (m ((c.tc : Thread Cert.KernelIdeal.nD Cert.KernelIdeal.τ).loc Cert.KernelIdeal.main_arg2)) wk
      ∧ IsReal2 (m ((c.tc : Thread Cert.KernelIdeal.nD Cert.KernelIdeal.τ).loc Cert.KernelIdeal.main_arg3)) wv
      ∧ IsReal2 (m ((c.tc : Thread Cert.KernelIdeal.nD Cert.KernelIdeal.τ).loc Cert.KernelIdeal.main_arg4)) wo := by
  have h0 := congrFun (h c) ValueIdx.ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨x, hx⟩ := exists_fun3 _ (real_of_all _ _ _ _ _ e0)
  obtain ⟨wq, hq⟩ := exists_fun2 _ (real_of_all _ _ _ _ _ e1)
  obtain ⟨wk, hk⟩ := exists_fun2 _ (real_of_all _ _ _ _ _ e2)
  obtain ⟨wv, hv⟩ := exists_fun2 _ (real_of_all _ _ _ _ _ e3)
  obtain ⟨wo, ho⟩ := exists_fun2 _ (real_of_all _ _ _ _ _ e4)
  exact ⟨x, wq, wk, wv, wo, hx, hq, hk, hv, ho⟩

end Cert.Hand

end
-- ==== Proof.lean ====
/-
  Multi-head attention, B = 4, S = 2048, D = 1024, 16 heads of 64: a Pallas kernel program of two pipelines — the
  three projections packed into one [8192, 3072] array by a tiled matrix product, then per batch and 512-row query
  tile the sixteen heads' softmax(Q·Kᵀ/8)·V written side by side into a scratch and multiplied by the output
  weight — against the plain jnp reference. Over the extended reals, for finite inputs, the two compute one
  function: every intermediate is a real number, scaling the query by 1/8 before the product is dividing the
  product by √64 = 8, and dividing the weighted sum of the values by the row's total of exponentials is summing
  with the normalised weights (`Cert.Spec.kOut_eq_rOut`). The kernel's run and frame are proved over the pipeline
  library's several-region launch theorem, the same text at the word-level and the ideal instance; the
  reference's run is its generated run.
-/
import proofs.«429044_j39298950759077_3_alg».proof.Defs
import proofs.«429044_j39298950759077_3_alg».proof.Proof.Gen.Kernel
import proofs.«429044_j39298950759077_3_alg».proof.Proof.Gen.KernelIdeal
import proofs.«429044_j39298950759077_3_alg».proof.Proof.Gen.ReferenceIdeal
import proofs.«429044_j39298950759077_3_alg».proof.Proof.Gen.Pre_finite_inputs
import proofs.«429044_j39298950759077_3_alg».proof.Proof.Gen.ReferenceIdeal.Run
import proofs.«429044_j39298950759077_3_alg».proof.Proof.BitsKFrame
import proofs.«429044_j39298950759077_3_alg».proof.Proof.KFrame
import proofs.«429044_j39298950759077_3_alg».proof.Proof.KValue
import proofs.«429044_j39298950759077_3_alg».proof.Proof.RefValue
import proofs.«429044_j39298950759077_3_alg».proof.Proof.Pre
import proofs.«429044_j39298950759077_3_alg».proof.Proof.Alg
import Idealize.ShloMosaic.Adequacy
import Idealize.ShloMosaic.Init

noncomputable section

namespace Cert.Proof

open Idealize.ShloMosaic Idealize.SL.Sem

/-- The word-level kernel program runs and leaves its arguments as launched: its run with the result dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_value (F := Bits) m ρ)

/-- The same at the extended reals. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_value (F := Ideal) m ρ)

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result array at the coercion of one real function of the arguments' reals: the
    kernel's at its arrangement of attention, the reference's at its own, equal over the reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.resArr (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x, wq, wk, wv, wo, hx, hq, hk, hv, ho⟩ := Cert.Hand.reals_of_pre m hpre c
  have hker := Cert.KernelIdeal.Hand.resArr_real m c x wq wk wv wo hx hq hk hv ho
  have href := Cert.ReferenceIdeal.Hand.res_real m' c x wq wk wv wo
    (by rw [(hagree c).1]; exact hx) (by rw [(hagree c).2.1]; exact hq) (by rw [(hagree c).2.2.1]; exact hk)
    (by rw [(hagree c).2.2.2.1]; exact hv) (by rw [(hagree c).2.2.2.2]; exact ho)
  funext i
  refine (href i).trans (Eq.trans ?_ (hker i).symm)
  exact congrArg _ (Cert.Spec.kOut_eq_rOut _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
